-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S2048x2048 : Shape := ⟨2, ![2048, 2048]⟩
abbrev S2048 : Shape := ⟨1, ![2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_arg15 : FVec F S2048x2048 .f32) (main_arg16 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  main_v83

def fn_part3 {F : FTy → Type} [FloatOps F] (main_arg11 : FVec F S2048 .f32) (main_arg12 : FVec F S2048x2048 .f32) (main_arg13 : FVec F S2048x2048 .f32) (main_arg14 : FVec F S2048 .f32) (main_arg15 : FVec F S2048x2048 .f32) (main_arg16 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_v63 main_v67

def fn_part2 {F : FTy → Type} [FloatOps F] (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_arg15 : FVec F S2048x2048 .f32) (main_arg16 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_v48 main_v49 main_v50

def fn_part1 {F : FTy → Type} [FloatOps F] (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_arg15 : FVec F S2048x2048 .f32) (main_arg16 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S64x2048 .f32) (main_arg1 : FVec F S64x2048 .f32) (main_arg2 : FVec F S64x2048 .f32) (main_arg3 : FVec F S2048x2048 .f32) (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_arg15 : FVec F S2048x2048 .f32) (main_arg16 : FVec F S2048 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S64x2048 : Shape := ⟨2, ![64, 2048]⟩
abbrev S2048x2048 : Shape := ⟨2, ![2048, 2048]⟩
abbrev S2048 : Shape := ⟨1, ![2048]⟩
abbrev S64x128 : Shape := ⟨2, ![64, 128]⟩
abbrev S2048x128 : Shape := ⟨2, ![2048, 128]⟩
abbrev S128 : Shape := ⟨1, ![128]⟩
abbrev S1x128 : Shape := ⟨2, ![1, 128]⟩
abbrev S64x6144 : Shape := ⟨2, ![64, 6144]⟩

abbrev nBuf : Space → Nat
  | .hbm => 21
  | .vmem => 38
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S64x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S64x6144, .f32⟩
  | .local _ .vmem, ⟨0, _⟩ => ⟨S64x2048, .f32⟩
  | .local _ .vmem, ⟨1, _⟩ => ⟨S64x2048, .f32⟩
  | .local _ .vmem, ⟨2, _⟩ => ⟨S64x128, .f32⟩
  | .local _ .vmem, ⟨3, _⟩ => ⟨S64x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128, .f32⟩
  | .local _ .vmem, ⟨9, _⟩ => ⟨S128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S128, .f32⟩
  | .local _ .vmem, ⟨15, _⟩ => ⟨S128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S128, .f32⟩
  | .local _ .vmem, ⟨21, _⟩ => ⟨S128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S128, .f32⟩
  | .local _ .vmem, ⟨27, _⟩ => ⟨S128, .f32⟩
  | .local _ .vmem, ⟨28, _⟩ => ⟨S2048x128, .f32⟩
  | .local _ .vmem, ⟨29, _⟩ => ⟨S2048x128, .f32⟩
  | .local _ .vmem, ⟨30, _⟩ => ⟨S128, .f32⟩
  | .local _ .vmem, ⟨31, _⟩ => ⟨S128, .f32⟩
  | .local _ .vmem, ⟨32, _⟩ => ⟨S64x128, .f32⟩
  | .local _ .vmem, ⟨33, _⟩ => ⟨S64x128, .f32⟩
  | .local _ .vmem, ⟨34, _⟩ => ⟨S64x128, .f32⟩
  | .local _ .vmem, ⟨35, _⟩ => ⟨S64x128, .f32⟩
  | .local _ .vmem, ⟨36, _⟩ => ⟨S64x128, .f32⟩
  | .local _ .vmem, ⟨37, _⟩ => ⟨S64x128, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 1 → Nat :=
  let arg0 : BitVec 32 := BitVec.ofNat 32 (i 0).val
  let c0_i32 : BitVec 32 := 0#32
  ![arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 1 → Nat :=
  let arg0 : BitVec 32 := BitVec.ofNat 32 (i 0).val
  let c0_i32 : BitVec 32 := 0#32
  ![arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 1 → Nat :=
  let arg0 : BitVec 32 := BitVec.ofNat 32 (i 0).val
  let c0_i32 : BitVec 32 := 0#32
  ![arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2048x128_S2048x128_0_0 : ∀ a, (![0, 0] : Fin 2 → Nat) a + S2048x128.size a ≤ S2048x128.size a
  h_S2048x128 : 0 < S2048x128.numel
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  concatenates_S64x2048_S64x2048_S64x2048_S64x6144_d1 : Shape.Concatenates [S64x2048, S64x2048, S64x2048] S64x6144 1
  dot_S64x2048_S2048x128_S64x128_1_0_0_1_n_n_wf : DotDims.WF S64x2048 S2048x128 S64x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x2048.size a
  hwx0_2 : ∀ i : grid0.Coords, EltTy.bits .f32 = 32 ∨ (Rect.block (s := S64x2048) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x2048.size a
  hwx0_3 : ∀ i : grid0.Coords, EltTy.bits .f32 = 32 ∨ (Rect.block (s := S2048x2048) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x2048.size a
  hwx0_4 : ∀ i : grid0.Coords, EltTy.bits .f32 = 32 ∨ (Rect.block (s := S2048x2048) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S2048.size a
  hwx0_5 : ∀ i : grid0.Coords, EltTy.bits .f32 = 32 ∨ (Rect.block (s := S2048) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x2048.size a
  hwx0_6 : ∀ i : grid0.Coords, EltTy.bits .f32 = 32 ∨ (Rect.block (s := S2048x2048) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x2048.size a
  hwx0_7 : ∀ i : grid0.Coords, EltTy.bits .f32 = 32 ∨ (Rect.block (s := S2048x2048) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S2048.size a
  hwx0_8 : ∀ i : grid0.Coords, EltTy.bits .f32 = 32 ∨ (Rect.block (s := S2048) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S2048x2048.size a
  hwx0_9 : ∀ i : grid0.Coords, EltTy.bits .f32 = 32 ∨ (Rect.block (s := S2048x2048) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S2048x2048.size a
  hwx0_10 : ∀ i : grid0.Coords, EltTy.bits .f32 = 32 ∨ (Rect.block (s := S2048x2048) S2048x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S2048.size a
  hwx0_11 : ∀ i : grid0.Coords, EltTy.bits .f32 = 32 ∨ (Rect.block (s := S2048) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x128.size a ≤ S2048x2048.size a
  hwx0_12 : ∀ i : grid0.Coords, EltTy.bits .f32 = 32 ∨ (Rect.block (s := S2048x2048) S2048x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x128.size a ≤ S2048x2048.size a
  hwx0_13 : ∀ i : grid0.Coords, EltTy.bits .f32 = 32 ∨ (Rect.block (s := S2048x2048) S2048x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S2048.size a
  hwx0_14 : ∀ i : grid0.Coords, EltTy.bits .f32 = 32 ∨ (Rect.block (s := S2048) S128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x128.size a ≤ S2048x2048.size a
  hwx0_15 : ∀ i : grid0.Coords, EltTy.bits .f32 = 32 ∨ (Rect.block (s := S2048x2048) S2048x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S2048.size a
  hwx0_16 : ∀ i : grid0.Coords, EltTy.bits .f32 = 32 ∨ (Rect.block (s := S2048) S128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S64x128.size a ≤ S64x2048.size a
  hwx0_17 : ∀ i : grid0.Coords, EltTy.bits .f32 = 32 ∨ (Rect.block (s := S64x2048) S64x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S64x128.size a ≤ S64x2048.size a
  hwx0_18 : ∀ i : grid0.Coords, EltTy.bits .f32 = 32 ∨ (Rect.block (s := S64x2048) S64x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S64x128.size a ≤ S64x2048.size a
  hwx0_19 : ∀ i : grid0.Coords, EltTy.bits .f32 = 32 ∨ (Rect.block (s := S64x2048) S64x128.size (cc0_transform_19 i) (hinb0_19 i)).WholeWords (EltTy.packing .f32)

variable [Facts₀]

def dot_S64x2048_S2048x128_S64x128_1_0_0_1_n_n : DotDims S64x2048 S2048x128 S64x128 where
  lhsContracting := [1]
  rhsContracting := [0]
  lhsNonContracting := [0]
  rhsNonContracting := [1]
  lhsBatch := []
  rhsBatch := []
  wf := dot_S64x2048_S2048x128_S64x128_1_0_0_1_n_n_wf

abbrev win0_0 : Pipeline.Window sig grid0 :=
  Pipeline.Window.ofSpec (Memref.whole main_arg1) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S2048x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S2048x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S2048x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S2048x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2048x128.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v0_0) S64x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v0_1) S64x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0_2) S64x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S64x2048 : Shape := ⟨2, ![64, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S64x8192 : Shape := ⟨2, ![64, 8192]⟩
abbrev S1x8192 : Shape := ⟨2, ![1, 8192]⟩
abbrev S_ : Shape := ⟨0, ![]⟩
abbrev S1x2048 : Shape := ⟨2, ![1, 2048]⟩
abbrev S64x6144 : Shape := ⟨2, ![64, 6144]⟩

abbrev nBuf : Space → Nat
  | .hbm => 65
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S64x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x8192, .f32⟩
  | .hbm, ⟨18, _⟩ => ⟨S2048x8192, .f32⟩
  | .hbm, ⟨19, _⟩ => ⟨S8192, .f32⟩
  | .hbm, ⟨20, _⟩ => ⟨S64x8192, .f32⟩
  | .hbm, ⟨21, _⟩ => ⟨S64x8192, .f32⟩
  | .hbm, ⟨22, _⟩ => ⟨S64x8192, .f32⟩
  | .hbm, ⟨23, _⟩ => ⟨S1x8192, .f32⟩
  | .hbm, ⟨24, _⟩ => ⟨S64x8192, .f32⟩
  | .hbm, ⟨25, _⟩ => ⟨S64x8192, .f32⟩
  | .hbm, ⟨26, _⟩ => ⟨S64x2048, .f32⟩
  | .hbm, ⟨27, _⟩ => ⟨S64x2048, .f32⟩
  | .hbm, ⟨28, _⟩ => ⟨S64x2048, .f32⟩
  | .hbm, ⟨29, _⟩ => ⟨S64x2048, .f32⟩
  | .hbm, ⟨30, _⟩ => ⟨S64x2048, .f32⟩
  | .hbm, ⟨31, _⟩ => ⟨S64x2048, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S_, .f32⟩
  | .hbm, ⟨36, _⟩ => ⟨S64x2048, .f32⟩
  | .hbm, ⟨37, _⟩ => ⟨S64x2048, .f32⟩
  | .hbm, ⟨38, _⟩ => ⟨S64x2048, .f32⟩
  | .hbm, ⟨39, _⟩ => ⟨S64x2048, .f32⟩
  | .hbm, ⟨40, _⟩ => ⟨S_, .f32⟩
  | .hbm, ⟨41, _⟩ => ⟨S64x2048, .f32⟩
  | .hbm, ⟨42, _⟩ => ⟨S64x2048, .f32⟩
  | .hbm, ⟨43, _⟩ => ⟨S_, .f32⟩
  | .hbm, ⟨44, _⟩ => ⟨S64x2048, .f32⟩
  | .hbm, ⟨45, _⟩ => ⟨S64x2048, .f32⟩
  | .hbm, ⟨46, _⟩ => ⟨S64x2048, .f32⟩
  | .hbm, ⟨47, _⟩ => ⟨S64x2048, .f32⟩
  | .hbm, ⟨48, _⟩ => ⟨S64x2048, .f32⟩
  | .hbm, ⟨49, _⟩ => ⟨S_, .f32⟩
  | .hbm, ⟨50, _⟩ => ⟨S64x2048, .f32⟩
  | .hbm, ⟨51, _⟩ => ⟨S64x2048, .f32⟩
  | .hbm, ⟨52, _⟩ => ⟨S_, .f32⟩
  | .hbm, ⟨53, _⟩ => ⟨S64x2048, .f32⟩
  | .hbm, ⟨54, _⟩ => ⟨S64x2048, .f32⟩
  | .hbm, ⟨55, _⟩ => ⟨S64x2048, .f32⟩
  | .hbm, ⟨56, _⟩ => ⟨S64x2048, .f32⟩
  | .hbm, ⟨57, _⟩ => ⟨S64x2048, .f32⟩
  | .hbm, ⟨58, _⟩ => ⟨S64x2048, .f32⟩
  | .hbm, ⟨59, _⟩ => ⟨S64x2048, .f32⟩
  | .hbm, ⟨60, _⟩ => ⟨S64x2048, .f32⟩
  | .hbm, ⟨61, _⟩ => ⟨S1x2048, .f32⟩
  | .hbm, ⟨62, _⟩ => ⟨S64x2048, .f32⟩
  | .hbm, ⟨63, _⟩ => ⟨S64x2048, .f32⟩
  | .hbm, ⟨64, _⟩ => ⟨S64x6144, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  slices_S64x8192_S64x2048_0_0 : S64x8192.Slices ![0, 0] S64x2048
  slices_S64x8192_S64x2048_0_2048 : S64x8192.Slices ![0, 2048] S64x2048
  slices_S64x8192_S64x2048_0_4096 : S64x8192.Slices ![0, 4096] S64x2048
  slices_S64x8192_S64x2048_0_6144 : S64x8192.Slices ![0, 6144] S64x2048
  bcast_S_S64x2048 : S_.BroadcastsInDim S64x2048 (![] : Fin 0 → Fin S64x2048.rank)
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  concatenates_S64x2048_S64x2048_S64x2048_S64x6144_d1 : Shape.Concatenates [S64x2048, S64x2048, S64x2048] S64x6144 1
  dot_S64x2048_S2048x8192_S64x8192_1_0_0_1_n_n_wf : DotDims.WF S64x2048 S2048x8192 S64x8192 [1] [0] [0] [1] [] []
  dot_S64x2048_S2048x2048_S64x2048_1_0_0_1_n_n_wf : DotDims.WF S64x2048 S2048x2048 S64x2048 [1] [0] [0] [1] [] []

variable [Facts₀]

def dot_S64x2048_S2048x8192_S64x8192_1_0_0_1_n_n : DotDims S64x2048 S2048x8192 S64x8192 where
  lhsContracting := [1]
  rhsContracting := [0]
  lhsNonContracting := [0]
  rhsNonContracting := [1]
  lhsBatch := []
  rhsBatch := []
  wf := dot_S64x2048_S2048x8192_S64x8192_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

class Facts : Prop extends Facts₀ where

variable [Facts]
-- ==== Proof.KernelData.lean ====
/-
  The proof data of the LSTM kernel's one pipeline.

  The pipeline has twenty windows over a grid of sixteen points: the previous hidden state and the input (resident,
  whole [64, 2048] arrays), the previous cell state (block t = columns 128·t … 128·t + 127), thirteen weight and bias
  operands (block t = the same 128 columns of each), and three outputs written back block by block. The body reads
  every input block whole and stores one whole [64, 128] block into each output: the output projection, the new hidden
  state and the new cell state of those 128 columns, each a pure function of the input blocks (the skeleton's
  payloads). Nothing is carried from one grid point to the next.
-/
import proofs.«151199_j11879879542513_1_alg».proof.Proof.Gen.Kernel.Launch
import proofs.«151199_j11879879542513_1_alg».proof.Proof.Gen.Kernel.Skeleton
import proofs.«151199_j11879879542513_1_alg».proof.Proof.Gen.Kernel.Points
import Idealize.ShloMosaic.Lib.Pipeline.FrameBody
import Idealize.ShloMosaic.Lib.Pipeline.FrameSuffix

set_option maxRecDepth 16384

noncomputable section

namespace Cert.Kernel.Lstm

open Cert.Kernel Cert.Kernel.Gen
open Idealize.ShloMosaic Idealize.ShloMosaic.TcCoe
open Idealize.SL Idealize.SL.RA Idealize.SL.BI Idealize.SL.Sem
open Idealize.ShloMosaic.Rounds
open Idealize.ShloMosaic.Pipeline (Dat Cfg Window)

variable {F : FTy → Type} [FloatOps F]
variable (m : (ℓ : Loc nD τ sig) → Buf (Elt F) ℓ)

/-! ## The arrays as the region finds them -/

/-- No host operation runs before the region: core `c`'s buffers at the region's entry are the launch contents. -/
abbrev entryVal (c : Dev nD) : Valuation τ sig (Elt F) :=
  StableHlo.after (List.flatten ([] : List (List (HloOp τ sig (Elt F))))) (fun b => m (c, b))
/-- The same, read at a TensorCore buffer. -/
abbrev entryAt (c : Dev nD) (b : Ref sig .tc) : Buf (Elt F) ((c : Thread nD τ).loc b) := entryVal m c (Proc.devRef .tc b)

/-- Window `w`'s block at grid point `t`, read off its array at the region's entry. -/
def blockAt (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-! ## What the body stores, as functions of the blocks it loads -/

/-- The output projection's 128 columns: previous hidden state times the projection's columns, plus its bias. -/
def yBlock (h : Vec F S64x2048 .f32) (wy : Vec F S2048x128 .f32) (b : Vec F S128 .f32) : Vec F S64x128 .f32 :=
  k0_pay3 (k0_pay4 h) wy b

/-- The new cell state's 128 columns. -/
def cBlock (h x : Vec F S64x2048 .f32) (c : Vec F S64x128 .f32) (wfh wfx : Vec F S2048x128 .f32) (bf : Vec F S128 .f32)
    (wih wix : Vec F S2048x128 .f32) (bi : Vec F S128 .f32) (wch wcx : Vec F S2048x128 .f32) (bc : Vec F S128 .f32) :
    Vec F S64x128 .f32 :=
  k0_pay1 c (k0_pay6 h x wfh wfx bf) (k0_pay7 h x wih wix bi) (k0_pay8 h wch) (k0_pay9 x wcx) bc

/-- The new hidden state's 128 columns. -/
def hBlock (h x : Vec F S64x2048 .f32) (c : Vec F S64x128 .f32) (wfh wfx : Vec F S2048x128 .f32) (bf : Vec F S128 .f32)
    (wih wix : Vec F S2048x128 .f32) (bi : Vec F S128 .f32) (wch wcx : Vec F S2048x128 .f32) (bc : Vec F S128 .f32)
    (woh wox : Vec F S2048x128 .f32) (bo : Vec F S128 .f32) : Vec F S64x128 .f32 :=
  k0_pay2 (k0_pay4 h) (k0_pay5 x) c (k0_pay6 h x wfh wfx bf) (k0_pay7 h x wih wix bi) (k0_pay8 h wch) (k0_pay9 x wcx) bc
    woh wox bo

/-! ## The proof data -/

/-- On core `c`: the arrays are the region-entry contents; after the body at point `t` every input's staging buffer still
    holds its block, and the three outputs' hold the projection, the new hidden state and the new cell state computed
    from the input blocks at `t` (windows in operand order: h, x, c, then (Wh, Wx, b) of the forget, input, candidate
    and output gates, then Wy, by). -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => blockAt m c 14 t
    | ⟨15, _⟩ => blockAt m c 15 t
    | ⟨16, _⟩ => blockAt m c 16 t
    | ⟨17, _⟩ => yBlock (blockAt m c 0 t) (blockAt m c 15 t) (blockAt m c 16 t)
    | ⟨18, _⟩ => hBlock (blockAt m c 0 t) (blockAt m c 1 t) (blockAt m c 2 t) (blockAt m c 3 t) (blockAt m c 4 t) (blockAt m c 5 t)
        (blockAt m c 6 t) (blockAt m c 7 t) (blockAt m c 8 t) (blockAt m c 9 t) (blockAt m c 10 t) (blockAt m c 11 t)
        (blockAt m c 12 t) (blockAt m c 13 t) (blockAt m c 14 t)
    | ⟨19, _⟩ => cBlock (blockAt m c 0 t) (blockAt m c 1 t) (blockAt m c 2 t) (blockAt m c 3 t) (blockAt m c 4 t) (blockAt m c 5 t)
        (blockAt m c 6 t) (blockAt m c 7 t) (blockAt m c 8 t) (blockAt m c 9 t) (blockAt m c 10 t) (blockAt m c 11 t)
    | ⟨_ + 20, hw⟩ => absurd hw (Nat.not_lt.2 (Nat.le_add_left _ _))
  Φ _ := Pipeline.ΦA spec0 c
  q _ := fullShare
  owed _ := 0

/-- The proof data's arrays are the region-entry contents. -/
theorem dats_A (c : Dev nD) (w : Fin cfg0.W) : (dats m 0 c).A w = entryAt m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
theorem after_in7 (c : Dev nD) (t : Fin cfg0.N) : (dats m 0 c).after 7 t = blockAt m c 7 t := by dsimp only [dats]
theorem after_in8 (c : Dev nD) (t : Fin cfg0.N) : (dats m 0 c).after 8 t = blockAt m c 8 t := by dsimp only [dats]
theorem after_in9 (c : Dev nD) (t : Fin cfg0.N) : (dats m 0 c).after 9 t = blockAt m c 9 t := by dsimp only [dats]
theorem after_in10 (c : Dev nD) (t : Fin cfg0.N) : (dats m 0 c).after 10 t = blockAt m c 10 t := by dsimp only [dats]
theorem after_in11 (c : Dev nD) (t : Fin cfg0.N) : (dats m 0 c).after 11 t = blockAt m c 11 t := by dsimp only [dats]
theorem after_in12 (c : Dev nD) (t : Fin cfg0.N) : (dats m 0 c).after 12 t = blockAt m c 12 t := by dsimp only [dats]
theorem after_in13 (c : Dev nD) (t : Fin cfg0.N) : (dats m 0 c).after 13 t = blockAt m c 13 t := by dsimp only [dats]
theorem after_in14 (c : Dev nD) (t : Fin cfg0.N) : (dats m 0 c).after 14 t = blockAt m c 14 t := by dsimp only [dats]
theorem after_in15 (c : Dev nD) (t : Fin cfg0.N) : (dats m 0 c).after 15 t = blockAt m c 15 t := by dsimp only [dats]
theorem after_in16 (c : Dev nD) (t : Fin cfg0.N) : (dats m 0 c).after 16 t = blockAt m c 16 t := by dsimp only [dats]
theorem after_y (c : Dev nD) (t : Fin cfg0.N) :
    (dats m 0 c).after 17 t = yBlock (blockAt m c 0 t) (blockAt m c 15 t) (blockAt m c 16 t) := by dsimp only [dats]
theorem after_h (c : Dev nD) (t : Fin cfg0.N) :
    (dats m 0 c).after 18 t = hBlock (blockAt m c 0 t) (blockAt m c 1 t) (blockAt m c 2 t) (blockAt m c 3 t) (blockAt m c 4 t) (blockAt m c 5 t)
        (blockAt m c 6 t) (blockAt m c 7 t) (blockAt m c 8 t) (blockAt m c 9 t) (blockAt m c 10 t) (blockAt m c 11 t)
        (blockAt m c 12 t) (blockAt m c 13 t) (blockAt m c 14 t) := by dsimp only [dats]
theorem after_c (c : Dev nD) (t : Fin cfg0.N) :
    (dats m 0 c).after 19 t = cBlock (blockAt m c 0 t) (blockAt m c 1 t) (blockAt m c 2 t) (blockAt m c 3 t) (blockAt m c 4 t) (blockAt m c 5 t)
        (blockAt m c 6 t) (blockAt m c 7 t) (blockAt m c 8 t) (blockAt m c 9 t) (blockAt m c 10 t) (blockAt m c 11 t) := by dsimp only [dats]

end Cert.Kernel.Lstm

end
-- ==== Proof.KernelBody.lean ====
/-
  The LSTM kernel's body as one triple: on whole staging buffers, the seventeen inputs' holding any contents and the
  three outputs' holding anything, the body runs to its end without a fault, leaves every input buffer as it was,
  and leaves in the output buffers the projection, the new hidden state and the new cell state computed from the
  inputs' contents. Every load reads a whole buffer and every store writes a whole buffer, so each output buffer
  ends at exactly the value stored into it.
-/
import proofs.«151199_j11879879542513_1_alg».proof.Proof.KernelData
import Idealize.ShloMosaic.Lib.Ring
import Idealize.ShloMosaic.Lib.Pipeline.Value
import Idealize.ShloMosaic.Lib.Tactic

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole-buffer access starts at offset zero on both axes (on the one axis, for a bias). -/
theorem zero2 : (![0, 0] : Fin 2 → Nat) = fun _ => 0 := by funext a; fin_cases a <;> rfl
theorem zero1 : (![0] : Fin 1 → Nat) = fun _ => 0 := by funext a; fin_cases a; rfl

/-- One store of a whole [64, 128] block covers the block. -/
theorem whole_store_covers (p0 : Vec F S64x128 .f32) (y : S64x128.Idx) :
    ∃ pc ∈ ([⟨Rect.unit (s := S64x128) ![0, 0] S64x128.size inb_S64x128_S64x128_0_0, p0⟩] : List (View.Piece (Elt F) S64x128 .f32)), y ∈ pc.1.set :=
  View.cover_of_tiled [⟨Rect.unit (s := S64x128) ![0, 0] S64x128.size inb_S64x128_S64x128_0_0, p0⟩] S64x128.size (by rfl) y

set_option maxHeartbeats 4000000 in
theorem body_run (c : Dev nD) (E : Set ℕ) (i : grid0.Coords)
    (a1 : Memref sig .tc .vmem S64x2048 .f32) (ha1 : a1.IsWhole)
    (a2 : Memref sig .tc .vmem S64x2048 .f32) (ha2 : a2.IsWhole)
    (a3 : Memref sig .tc .vmem S64x128 .f32) (ha3 : a3.IsWhole)
    (a4 : Memref sig .tc .vmem S2048x128 .f32) (ha4 : a4.IsWhole)
    (a5 : Memref sig .tc .vmem S2048x128 .f32) (ha5 : a5.IsWhole)
    (a6 : Memref sig .tc .vmem S128 .f32) (ha6 : a6.IsWhole)
    (a7 : Memref sig .tc .vmem S2048x128 .f32) (ha7 : a7.IsWhole)
    (a8 : Memref sig .tc .vmem S2048x128 .f32) (ha8 : a8.IsWhole)
    (a9 : Memref sig .tc .vmem S128 .f32) (ha9 : a9.IsWhole)
    (a10 : Memref sig .tc .vmem S2048x128 .f32) (ha10 : a10.IsWhole)
    (a11 : Memref sig .tc .vmem S2048x128 .f32) (ha11 : a11.IsWhole)
    (a12 : Memref sig .tc .vmem S128 .f32) (ha12 : a12.IsWhole)
    (a13 : Memref sig .tc .vmem S2048x128 .f32) (ha13 : a13.IsWhole)
    (a14 : Memref sig .tc .vmem S2048x128 .f32) (ha14 : a14.IsWhole)
    (a15 : Memref sig .tc .vmem S128 .f32) (ha15 : a15.IsWhole)
    (a16 : Memref sig .tc .vmem S2048x128 .f32) (ha16 : a16.IsWhole)
    (a17 : Memref sig .tc .vmem S128 .f32) (ha17 : a17.IsWhole)
    (a18 : Memref sig .tc .vmem S64x128 .f32) (ha18 : a18.IsWhole)
    (a19 : Memref sig .tc .vmem S64x128 .f32) (ha19 : a19.IsWhole)
    (a20 : Memref sig .tc .vmem S64x128 .f32) (ha20 : a20.IsWhole)
    (h x : Vec F S64x2048 .f32) (cp : Vec F S64x128 .f32) (wfh wfx : Vec F S2048x128 .f32) (bf : Vec F S128 .f32)
    (wih wix : Vec F S2048x128 .f32) (bi : Vec F S128 .f32) (wch wcx : Vec F S2048x128 .f32) (bc : Vec F S128 .f32)
    (woh wox : Vec F S2048x128 .f32) (bo : Vec F S128 .f32) (wy : Vec F S2048x128 .f32) (by_ : Vec F S128 .f32) (K : PUnit → sProp 𝕄) :
    iprop(owns (c : Thread nD τ) a1 fullShare h ∗ owns (c : Thread nD τ) a2 fullShare x ∗ owns (c : Thread nD τ) a3 fullShare cp ∗ owns (c : Thread nD τ) a4 fullShare wfh ∗ owns (c : Thread nD τ) a5 fullShare wfx ∗ owns (c : Thread nD τ) a6 fullShare bf ∗ owns (c : Thread nD τ) a7 fullShare wih ∗ owns (c : Thread nD τ) a8 fullShare wix ∗ owns (c : Thread nD τ) a9 fullShare bi ∗ owns (c : Thread nD τ) a10 fullShare wch ∗ owns (c : Thread nD τ) a11 fullShare wcx ∗ owns (c : Thread nD τ) a12 fullShare bc ∗ owns (c : Thread nD τ) a13 fullShare woh ∗ owns (c : Thread nD τ) a14 fullShare wox ∗ owns (c : Thread nD τ) a15 fullShare bo ∗ owns (c : Thread nD τ) a16 fullShare wy ∗ owns (c : Thread nD τ) a17 fullShare by_
        ∗ (∃ d, owns (c : Thread nD τ) a18 fullShare d) ∗ (∃ d, owns (c : Thread nD τ) a19 fullShare d) ∗ (∃ d, owns (c : Thread nD τ) a20 fullShare d)
        ∗ (iprop(owns (c : Thread nD τ) a1 fullShare h ∗ owns (c : Thread nD τ) a2 fullShare x ∗ owns (c : Thread nD τ) a3 fullShare cp ∗ owns (c : Thread nD τ) a4 fullShare wfh ∗ owns (c : Thread nD τ) a5 fullShare wfx ∗ owns (c : Thread nD τ) a6 fullShare bf ∗ owns (c : Thread nD τ) a7 fullShare wih ∗ owns (c : Thread nD τ) a8 fullShare wix ∗ owns (c : Thread nD τ) a9 fullShare bi ∗ owns (c : Thread nD τ) a10 fullShare wch ∗ owns (c : Thread nD τ) a11 fullShare wcx ∗ owns (c : Thread nD τ) a12 fullShare bc ∗ owns (c : Thread nD τ) a13 fullShare woh ∗ owns (c : Thread nD τ) a14 fullShare wox ∗ owns (c : Thread nD τ) a15 fullShare bo ∗ owns (c : Thread nD τ) a16 fullShare wy ∗ owns (c : Thread nD τ) a17 fullShare by_
            ∗ owns (c : Thread nD τ) a18 fullShare (yBlock h wy by_) ∗ owns (c : Thread nD τ) a19 fullShare (hBlock h x cp wfh wfx bf wih wix bi wch wcx bc woh wox bo)
            ∗ owns (c : Thread nD τ) a20 fullShare (cBlock h x cp wfh wfx bf wih wix bi wch wcx bc)) -∗ K ⟨⟩))
      ⊢ wp frame (wpE (defs₀ (F := F)) Variants.none c none) E (cc0__lstm_kernel i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20) K := by
  simp only [cc0__lstm_kernel_eq_skeleton]; unfold cc0__lstm_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    rw [View.read_writes_eq_canon _ _ _ (whole_store_covers _)]
    sl_unfold_words
    rw [View.canon_unit_zero zero2]
    unfold yBlock
    simp only [View.readAt_eq_ld, View.ld_unit_zero (S := S64x2048) zero2, View.ld_unit_zero (S := S64x128) zero2,
      View.ld_unit_zero (S := S2048x128) zero2, View.ld_unit_zero (S := S128) zero1]
  isplitl [H19]
  · iexists _; isplitr
    swap; · iexact H19
    ipureintro
    rw [View.read_writes_eq_canon _ _ _ (whole_store_covers _)]
    sl_unfold_words
    rw [View.canon_unit_zero zero2]
    unfold hBlock
    simp only [View.readAt_eq_ld, View.ld_unit_zero (S := S64x2048) zero2, View.ld_unit_zero (S := S64x128) zero2,
      View.ld_unit_zero (S := S2048x128) zero2, View.ld_unit_zero (S := S128) zero1]
  iexists _; isplitr
  swap; · iexact H20
  ipureintro
  rw [View.read_writes_eq_canon _ _ _ (whole_store_covers _)]
  sl_unfold_words
  rw [View.canon_unit_zero zero2]
  unfold cBlock
  simp only [View.readAt_eq_ld, View.ld_unit_zero (S := S64x2048) zero2, View.ld_unit_zero (S := S64x128) zero2,
    View.ld_unit_zero (S := S2048x128) zero2, View.ld_unit_zero (S := S128) zero1]

end Cert.Kernel.Lstm

end
-- ==== Proof.KernelFrame.lean ====
/-
  The LSTM kernel program runs to its end and leaves its arguments unchanged.

  The program is one pipelined region followed by one host operation that joins the region's three result arrays.
  At every grid point each input's current staging buffer holds that input's block (fetched there, or, for the two
  resident inputs, still there from the first point), so the body's triple applies; the region's run then has every
  argument array at its entry contents (an input's array is never written back), and the joining operation writes
  only its own result buffer.
-/
import proofs.«151199_j11879879542513_1_alg».proof.Proof.KernelBody

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The joining operation allocates nothing. -/
theorem join_fresh : (hostOps1 : List (HloOp τ sig (Elt F))).Forall fun op => op.fresh = ∅ := by
  simp only [List.Forall]; repeat' constructor

/-- The program is the region continued by the joining operation; nothing runs before the region. -/
theorem main_around (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] (by simp only [List.Forall]) (by simp only [List.Forall]) main_chain

/-- The joining operation touches the pipeline's arrays and the one buffer outside it only. -/
theorem join_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem join_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp join_fresh) op hop

/-- It writes its own result buffer, which is no array of the pipeline. -/
theorem join_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.nary_writes, Finset.mem_singleton] <;> exact StableHlo.devRef_ne_of_ne (by decide)

/-- With nothing before the region, a buffer at the region's entry holds its launch contents. -/
theorem entryAt_eq (c : Dev nD) (b : Ref sig .tc) : entryAt m c b = m ((c : Thread nD τ).loc b) := rfl

/-! ## Every input's staging buffer holds its block at every point -/

theorem before_in0 (c : Dev nD) (t : Fin cfg0.N) (d) : (dats m 0 c).before 0 t d = blockAt m c 0 t :=
  ((dats m 0 c).before_in_eq_fetched 0 rfl (fun _ => rfl) (fun _ _ _ => rfl)
      (fun t => by rw [after_in0]; unfold Dat.blockOf blockAt; rw [dats_A]; try rfl) t d).trans
    (by unfold Dat.fetched Dat.blockOf blockAt; rw [dats_A]; try rfl)
theorem before_in1 (c : Dev nD) (t : Fin cfg0.N) (d) : (dats m 0 c).before 1 t d = blockAt m c 1 t :=
  ((dats m 0 c).before_in_eq_fetched 1 rfl (fun _ => rfl) (fun _ _ _ => rfl)
      (fun t => by rw [after_in1]; unfold Dat.blockOf blockAt; rw [dats_A]; try rfl) t d).trans
    (by unfold Dat.fetched Dat.blockOf blockAt; rw [dats_A]; try rfl)
theorem before_in2 (c : Dev nD) (t : Fin cfg0.N) (d) : (dats m 0 c).before 2 t d = blockAt m c 2 t :=
  ((dats m 0 c).before_in_eq_fetched 2 rfl (fun _ => rfl) (fun _ _ _ => rfl)
      (fun t => by rw [after_in2]; unfold Dat.blockOf blockAt; rw [dats_A]; try rfl) t d).trans
    (by unfold Dat.fetched Dat.blockOf blockAt; rw [dats_A]; try rfl)
theorem before_in3 (c : Dev nD) (t : Fin cfg0.N) (d) : (dats m 0 c).before 3 t d = blockAt m c 3 t :=
  ((dats m 0 c).before_in_eq_fetched 3 rfl (fun _ => rfl) (fun _ _ _ => rfl)
      (fun t => by rw [after_in3]; unfold Dat.blockOf blockAt; rw [dats_A]; try rfl) t d).trans
    (by unfold Dat.fetched Dat.blockOf blockAt; rw [dats_A]; try rfl)
theorem before_in4 (c : Dev nD) (t : Fin cfg0.N) (d) : (dats m 0 c).before 4 t d = blockAt m c 4 t :=
  ((dats m 0 c).before_in_eq_fetched 4 rfl (fun _ => rfl) (fun _ _ _ => rfl)
      (fun t => by rw [after_in4]; unfold Dat.blockOf blockAt; rw [dats_A]; try rfl) t d).trans
    (by unfold Dat.fetched Dat.blockOf blockAt; rw [dats_A]; try rfl)
theorem before_in5 (c : Dev nD) (t : Fin cfg0.N) (d) : (dats m 0 c).before 5 t d = blockAt m c 5 t :=
  ((dats m 0 c).before_in_eq_fetched 5 rfl (fun _ => rfl) (fun _ _ _ => rfl)
      (fun t => by rw [after_in5]; unfold Dat.blockOf blockAt; rw [dats_A]; try rfl) t d).trans
    (by unfold Dat.fetched Dat.blockOf blockAt; rw [dats_A]; try rfl)
theorem before_in6 (c : Dev nD) (t : Fin cfg0.N) (d) : (dats m 0 c).before 6 t d = blockAt m c 6 t :=
  ((dats m 0 c).before_in_eq_fetched 6 rfl (fun _ => rfl) (fun _ _ _ => rfl)
      (fun t => by rw [after_in6]; unfold Dat.blockOf blockAt; rw [dats_A]; try rfl) t d).trans
    (by unfold Dat.fetched Dat.blockOf blockAt; rw [dats_A]; try rfl)
theorem before_in7 (c : Dev nD) (t : Fin cfg0.N) (d) : (dats m 0 c).before 7 t d = blockAt m c 7 t :=
  ((dats m 0 c).before_in_eq_fetched 7 rfl (fun _ => rfl) (fun _ _ _ => rfl)
      (fun t => by rw [after_in7]; unfold Dat.blockOf blockAt; rw [dats_A]; try rfl) t d).trans
    (by unfold Dat.fetched Dat.blockOf blockAt; rw [dats_A]; try rfl)
theorem before_in8 (c : Dev nD) (t : Fin cfg0.N) (d) : (dats m 0 c).before 8 t d = blockAt m c 8 t :=
  ((dats m 0 c).before_in_eq_fetched 8 rfl (fun _ => rfl) (fun _ _ _ => rfl)
      (fun t => by rw [after_in8]; unfold Dat.blockOf blockAt; rw [dats_A]; try rfl) t d).trans
    (by unfold Dat.fetched Dat.blockOf blockAt; rw [dats_A]; try rfl)
theorem before_in9 (c : Dev nD) (t : Fin cfg0.N) (d) : (dats m 0 c).before 9 t d = blockAt m c 9 t :=
  ((dats m 0 c).before_in_eq_fetched 9 rfl (fun _ => rfl) (fun _ _ _ => rfl)
      (fun t => by rw [after_in9]; unfold Dat.blockOf blockAt; rw [dats_A]; try rfl) t d).trans
    (by unfold Dat.fetched Dat.blockOf blockAt; rw [dats_A]; try rfl)
theorem before_in10 (c : Dev nD) (t : Fin cfg0.N) (d) : (dats m 0 c).before 10 t d = blockAt m c 10 t :=
  ((dats m 0 c).before_in_eq_fetched 10 rfl (fun _ => rfl) (fun _ _ _ => rfl)
      (fun t => by rw [after_in10]; unfold Dat.blockOf blockAt; rw [dats_A]; try rfl) t d).trans
    (by unfold Dat.fetched Dat.blockOf blockAt; rw [dats_A]; try rfl)
theorem before_in11 (c : Dev nD) (t : Fin cfg0.N) (d) : (dats m 0 c).before 11 t d = blockAt m c 11 t :=
  ((dats m 0 c).before_in_eq_fetched 11 rfl (fun _ => rfl) (fun _ _ _ => rfl)
      (fun t => by rw [after_in11]; unfold Dat.blockOf blockAt; rw [dats_A]; try rfl) t d).trans
    (by unfold Dat.fetched Dat.blockOf blockAt; rw [dats_A]; try rfl)
theorem before_in12 (c : Dev nD) (t : Fin cfg0.N) (d) : (dats m 0 c).before 12 t d = blockAt m c 12 t :=
  ((dats m 0 c).before_in_eq_fetched 12 rfl (fun _ => rfl) (fun _ _ _ => rfl)
      (fun t => by rw [after_in12]; unfold Dat.blockOf blockAt; rw [dats_A]; try rfl) t d).trans
    (by unfold Dat.fetched Dat.blockOf blockAt; rw [dats_A]; try rfl)
theorem before_in13 (c : Dev nD) (t : Fin cfg0.N) (d) : (dats m 0 c).before 13 t d = blockAt m c 13 t :=
  ((dats m 0 c).before_in_eq_fetched 13 rfl (fun _ => rfl) (fun _ _ _ => rfl)
      (fun t => by rw [after_in13]; unfold Dat.blockOf blockAt; rw [dats_A]; try rfl) t d).trans
    (by unfold Dat.fetched Dat.blockOf blockAt; rw [dats_A]; try rfl)
theorem before_in14 (c : Dev nD) (t : Fin cfg0.N) (d) : (dats m 0 c).before 14 t d = blockAt m c 14 t :=
  ((dats m 0 c).before_in_eq_fetched 14 rfl (fun _ => rfl) (fun _ _ _ => rfl)
      (fun t => by rw [after_in14]; unfold Dat.blockOf blockAt; rw [dats_A]; try rfl) t d).trans
    (by unfold Dat.fetched Dat.blockOf blockAt; rw [dats_A]; try rfl)
theorem before_in15 (c : Dev nD) (t : Fin cfg0.N) (d) : (dats m 0 c).before 15 t d = blockAt m c 15 t :=
  ((dats m 0 c).before_in_eq_fetched 15 rfl (fun _ => rfl) (fun _ _ _ => rfl)
      (fun t => by rw [after_in15]; unfold Dat.blockOf blockAt; rw [dats_A]; try rfl) t d).trans
    (by unfold Dat.fetched Dat.blockOf blockAt; rw [dats_A]; try rfl)
theorem before_in16 (c : Dev nD) (t : Fin cfg0.N) (d) : (dats m 0 c).before 16 t d = blockAt m c 16 t :=
  ((dats m 0 c).before_in_eq_fetched 16 rfl (fun _ => rfl) (fun _ _ _ => rfl)
      (fun t => by rw [after_in16]; unfold Dat.blockOf blockAt; rw [dats_A]; try rfl) t d).trans
    (by unfold Dat.fetched Dat.blockOf blockAt; rw [dats_A]; try rfl)

/-! ## The body obligation -/

/-- What the body is called with at point `t`: the region's invariant, nothing owed, and the twenty current staging
    buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10, before_in11, before_in12, before_in13, before_in14, before_in15, before_in16]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9, after_in10, after_in11, after_in12, after_in13, after_in14, after_in15, after_in16, after_y, after_h, after_c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (body_run c Set.univ (grid0.coords t) _ _ _ _ _ _ _ _ _ _ _ _ _ _ _ _ _ _ _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program terminates without a fault; at the end each array of the pipeline holds
    what the proof data computes and the joined result buffer what the joining operation makes of the three results. -/
theorem region_run : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := join_sub) (hfresh := join_fresh') (hkeep := join_keeps)
    (hmain := main_around m Variants.none) (hA := dats_A m) (hΦ := fun _ _ => rfl)

/-- An input window's array ends at its launch contents: it is never written back. -/
theorem arg_kept (c : Dev nD) (w : Fin cfg0.W) (hin : (cfg0.win w).isOut = false) :
    (dats m 0 c).arrAt w cfg0.N = m ((c : Thread nD τ).loc (Pipeline.arrRef spec0 w)) :=
  ((dats m 0 c).arrAt_in w hin cfg0.N).trans (dats_A m c w)

/-- The frame: the program terminates and its seventeen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 1).trans (arg_kept m c 1 rfl),
    ((h c).1 0).trans (arg_kept m c 0 rfl),
    ((h c).1 2).trans (arg_kept m c 2 rfl),
    ((h c).1 3).trans (arg_kept m c 3 rfl),
    ((h c).1 4).trans (arg_kept m c 4 rfl),
    ((h c).1 5).trans (arg_kept m c 5 rfl),
    ((h c).1 6).trans (arg_kept m c 6 rfl),
    ((h c).1 7).trans (arg_kept m c 7 rfl),
    ((h c).1 8).trans (arg_kept m c 8 rfl),
    ((h c).1 12).trans (arg_kept m c 12 rfl),
    ((h c).1 13).trans (arg_kept m c 13 rfl),
    ((h c).1 14).trans (arg_kept m c 14 rfl),
    ((h c).1 9).trans (arg_kept m c 9 rfl),
    ((h c).1 10).trans (arg_kept m c 10 rfl),
    ((h c).1 11).trans (arg_kept m c 11 rfl),
    ((h c).1 15).trans (arg_kept m c 15 rfl),
    ((h c).1 16).trans (arg_kept m c 16 rfl)⟩) (region_run m ρ)

end Cert.Kernel.Lstm

end
-- ==== Proof.KernelIdealData.lean ====
/-
  The proof data of the LSTM kernel's one pipeline.

  The pipeline has twenty windows over a grid of sixteen points: the previous hidden state and the input (resident,
  whole [64, 2048] arrays), the previous cell state (block t = columns 128·t … 128·t + 127), thirteen weight and bias
  operands (block t = the same 128 columns of each), and three outputs written back block by block. The body reads
  every input block whole and stores one whole [64, 128] block into each output: the output projection, the new hidden
  state and the new cell state of those 128 columns, each a pure function of the input blocks (the skeleton's
  payloads). Nothing is carried from one grid point to the next.
-/
import proofs.«151199_j11879879542513_1_alg».proof.Proof.Gen.KernelIdeal.Launch
import proofs.«151199_j11879879542513_1_alg».proof.Proof.Gen.KernelIdeal.Skeleton
import proofs.«151199_j11879879542513_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Lstm

open Cert.KernelIdeal Cert.KernelIdeal.Gen
open Idealize.ShloMosaic Idealize.ShloMosaic.TcCoe
open Idealize.SL Idealize.SL.RA Idealize.SL.BI Idealize.SL.Sem
open Idealize.ShloMosaic.Rounds
open Idealize.ShloMosaic.Pipeline (Dat Cfg Window)

variable {F : FTy → Type} [FloatOps F]
variable (m : (ℓ : Loc nD τ sig) → Buf (Elt F) ℓ)

/-! ## The arrays as the region finds them -/

/-- No host operation runs before the region: core `c`'s buffers at the region's entry are the launch contents. -/
abbrev entryVal (c : Dev nD) : Valuation τ sig (Elt F) :=
  StableHlo.after (List.flatten ([] : List (List (HloOp τ sig (Elt F))))) (fun b => m (c, b))
/-- The same, read at a TensorCore buffer. -/
abbrev entryAt (c : Dev nD) (b : Ref sig .tc) : Buf (Elt F) ((c : Thread nD τ).loc b) := entryVal m c (Proc.devRef .tc b)

/-- Window `w`'s block at grid point `t`, read off its array at the region's entry. -/
def blockAt (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-! ## What the body stores, as functions of the blocks it loads -/

/-- The output projection's 128 columns: previous hidden state times the projection's columns, plus its bias. -/
def yBlock (h : Vec F S64x2048 .f32) (wy : Vec F S2048x128 .f32) (b : Vec F S128 .f32) : Vec F S64x128 .f32 :=
  k0_pay3 (k0_pay4 h) wy b

/-- The new cell state's 128 columns. -/
def cBlock (h x : Vec F S64x2048 .f32) (c : Vec F S64x128 .f32) (wfh wfx : Vec F S2048x128 .f32) (bf : Vec F S128 .f32)
    (wih wix : Vec F S2048x128 .f32) (bi : Vec F S128 .f32) (wch wcx : Vec F S2048x128 .f32) (bc : Vec F S128 .f32) :
    Vec F S64x128 .f32 :=
  k0_pay1 c (k0_pay6 h x wfh wfx bf) (k0_pay7 h x wih wix bi) (k0_pay8 h wch) (k0_pay9 x wcx) bc

/-- The new hidden state's 128 columns. -/
def hBlock (h x : Vec F S64x2048 .f32) (c : Vec F S64x128 .f32) (wfh wfx : Vec F S2048x128 .f32) (bf : Vec F S128 .f32)
    (wih wix : Vec F S2048x128 .f32) (bi : Vec F S128 .f32) (wch wcx : Vec F S2048x128 .f32) (bc : Vec F S128 .f32)
    (woh wox : Vec F S2048x128 .f32) (bo : Vec F S128 .f32) : Vec F S64x128 .f32 :=
  k0_pay2 (k0_pay4 h) (k0_pay5 x) c (k0_pay6 h x wfh wfx bf) (k0_pay7 h x wih wix bi) (k0_pay8 h wch) (k0_pay9 x wcx) bc
    woh wox bo

/-! ## The proof data -/

/-- On core `c`: the arrays are the region-entry contents; after the body at point `t` every input's staging buffer still
    holds its block, and the three outputs' hold the projection, the new hidden state and the new cell state computed
    from the input blocks at `t` (windows in operand order: h, x, c, then (Wh, Wx, b) of the forget, input, candidate
    and output gates, then Wy, by). -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => blockAt m c 14 t
    | ⟨15, _⟩ => blockAt m c 15 t
    | ⟨16, _⟩ => blockAt m c 16 t
    | ⟨17, _⟩ => yBlock (blockAt m c 0 t) (blockAt m c 15 t) (blockAt m c 16 t)
    | ⟨18, _⟩ => hBlock (blockAt m c 0 t) (blockAt m c 1 t) (blockAt m c 2 t) (blockAt m c 3 t) (blockAt m c 4 t) (blockAt m c 5 t)
        (blockAt m c 6 t) (blockAt m c 7 t) (blockAt m c 8 t) (blockAt m c 9 t) (blockAt m c 10 t) (blockAt m c 11 t)
        (blockAt m c 12 t) (blockAt m c 13 t) (blockAt m c 14 t)
    | ⟨19, _⟩ => cBlock (blockAt m c 0 t) (blockAt m c 1 t) (blockAt m c 2 t) (blockAt m c 3 t) (blockAt m c 4 t) (blockAt m c 5 t)
        (blockAt m c 6 t) (blockAt m c 7 t) (blockAt m c 8 t) (blockAt m c 9 t) (blockAt m c 10 t) (blockAt m c 11 t)
    | ⟨_ + 20, hw⟩ => absurd hw (Nat.not_lt.2 (Nat.le_add_left _ _))
  Φ _ := Pipeline.ΦA spec0 c
  q _ := fullShare
  owed _ := 0

/-- The proof data's arrays are the region-entry contents. -/
theorem dats_A (c : Dev nD) (w : Fin cfg0.W) : (dats m 0 c).A w = entryAt m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
theorem after_in7 (c : Dev nD) (t : Fin cfg0.N) : (dats m 0 c).after 7 t = blockAt m c 7 t := by dsimp only [dats]
theorem after_in8 (c : Dev nD) (t : Fin cfg0.N) : (dats m 0 c).after 8 t = blockAt m c 8 t := by dsimp only [dats]
theorem after_in9 (c : Dev nD) (t : Fin cfg0.N) : (dats m 0 c).after 9 t = blockAt m c 9 t := by dsimp only [dats]
theorem after_in10 (c : Dev nD) (t : Fin cfg0.N) : (dats m 0 c).after 10 t = blockAt m c 10 t := by dsimp only [dats]
theorem after_in11 (c : Dev nD) (t : Fin cfg0.N) : (dats m 0 c).after 11 t = blockAt m c 11 t := by dsimp only [dats]
theorem after_in12 (c : Dev nD) (t : Fin cfg0.N) : (dats m 0 c).after 12 t = blockAt m c 12 t := by dsimp only [dats]
theorem after_in13 (c : Dev nD) (t : Fin cfg0.N) : (dats m 0 c).after 13 t = blockAt m c 13 t := by dsimp only [dats]
theorem after_in14 (c : Dev nD) (t : Fin cfg0.N) : (dats m 0 c).after 14 t = blockAt m c 14 t := by dsimp only [dats]
theorem after_in15 (c : Dev nD) (t : Fin cfg0.N) : (dats m 0 c).after 15 t = blockAt m c 15 t := by dsimp only [dats]
theorem after_in16 (c : Dev nD) (t : Fin cfg0.N) : (dats m 0 c).after 16 t = blockAt m c 16 t := by dsimp only [dats]
theorem after_y (c : Dev nD) (t : Fin cfg0.N) :
    (dats m 0 c).after 17 t = yBlock (blockAt m c 0 t) (blockAt m c 15 t) (blockAt m c 16 t) := by dsimp only [dats]
theorem after_h (c : Dev nD) (t : Fin cfg0.N) :
    (dats m 0 c).after 18 t = hBlock (blockAt m c 0 t) (blockAt m c 1 t) (blockAt m c 2 t) (blockAt m c 3 t) (blockAt m c 4 t) (blockAt m c 5 t)
        (blockAt m c 6 t) (blockAt m c 7 t) (blockAt m c 8 t) (blockAt m c 9 t) (blockAt m c 10 t) (blockAt m c 11 t)
        (blockAt m c 12 t) (blockAt m c 13 t) (blockAt m c 14 t) := by dsimp only [dats]
theorem after_c (c : Dev nD) (t : Fin cfg0.N) :
    (dats m 0 c).after 19 t = cBlock (blockAt m c 0 t) (blockAt m c 1 t) (blockAt m c 2 t) (blockAt m c 3 t) (blockAt m c 4 t) (blockAt m c 5 t)
        (blockAt m c 6 t) (blockAt m c 7 t) (blockAt m c 8 t) (blockAt m c 9 t) (blockAt m c 10 t) (blockAt m c 11 t) := by dsimp only [dats]

end Cert.KernelIdeal.Lstm

end
-- ==== Proof.KernelIdealBody.lean ====
/-
  The LSTM kernel's body as one triple: on whole staging buffers, the seventeen inputs' holding any contents and the
  three outputs' holding anything, the body runs to its end without a fault, leaves every input buffer as it was,
  and leaves in the output buffers the projection, the new hidden state and the new cell state computed from the
  inputs' contents. Every load reads a whole buffer and every store writes a whole buffer, so each output buffer
  ends at exactly the value stored into it.
-/
import proofs.«151199_j11879879542513_1_alg».proof.Proof.KernelIdealData
import Idealize.ShloMosaic.Lib.Ring
import Idealize.ShloMosaic.Lib.Pipeline.Value
import Idealize.ShloMosaic.Lib.Tactic

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole-buffer access starts at offset zero on both axes (on the one axis, for a bias). -/
theorem zero2 : (![0, 0] : Fin 2 → Nat) = fun _ => 0 := by funext a; fin_cases a <;> rfl
theorem zero1 : (![0] : Fin 1 → Nat) = fun _ => 0 := by funext a; fin_cases a; rfl

/-- One store of a whole [64, 128] block covers the block. -/
theorem whole_store_covers (p0 : Vec F S64x128 .f32) (y : S64x128.Idx) :
    ∃ pc ∈ ([⟨Rect.unit (s := S64x128) ![0, 0] S64x128.size inb_S64x128_S64x128_0_0, p0⟩] : List (View.Piece (Elt F) S64x128 .f32)), y ∈ pc.1.set :=
  View.cover_of_tiled [⟨Rect.unit (s := S64x128) ![0, 0] S64x128.size inb_S64x128_S64x128_0_0, p0⟩] S64x128.size (by rfl) y

set_option maxHeartbeats 4000000 in
theorem body_run (c : Dev nD) (E : Set ℕ) (i : grid0.Coords)
    (a1 : Memref sig .tc .vmem S64x2048 .f32) (ha1 : a1.IsWhole)
    (a2 : Memref sig .tc .vmem S64x2048 .f32) (ha2 : a2.IsWhole)
    (a3 : Memref sig .tc .vmem S64x128 .f32) (ha3 : a3.IsWhole)
    (a4 : Memref sig .tc .vmem S2048x128 .f32) (ha4 : a4.IsWhole)
    (a5 : Memref sig .tc .vmem S2048x128 .f32) (ha5 : a5.IsWhole)
    (a6 : Memref sig .tc .vmem S128 .f32) (ha6 : a6.IsWhole)
    (a7 : Memref sig .tc .vmem S2048x128 .f32) (ha7 : a7.IsWhole)
    (a8 : Memref sig .tc .vmem S2048x128 .f32) (ha8 : a8.IsWhole)
    (a9 : Memref sig .tc .vmem S128 .f32) (ha9 : a9.IsWhole)
    (a10 : Memref sig .tc .vmem S2048x128 .f32) (ha10 : a10.IsWhole)
    (a11 : Memref sig .tc .vmem S2048x128 .f32) (ha11 : a11.IsWhole)
    (a12 : Memref sig .tc .vmem S128 .f32) (ha12 : a12.IsWhole)
    (a13 : Memref sig .tc .vmem S2048x128 .f32) (ha13 : a13.IsWhole)
    (a14 : Memref sig .tc .vmem S2048x128 .f32) (ha14 : a14.IsWhole)
    (a15 : Memref sig .tc .vmem S128 .f32) (ha15 : a15.IsWhole)
    (a16 : Memref sig .tc .vmem S2048x128 .f32) (ha16 : a16.IsWhole)
    (a17 : Memref sig .tc .vmem S128 .f32) (ha17 : a17.IsWhole)
    (a18 : Memref sig .tc .vmem S64x128 .f32) (ha18 : a18.IsWhole)
    (a19 : Memref sig .tc .vmem S64x128 .f32) (ha19 : a19.IsWhole)
    (a20 : Memref sig .tc .vmem S64x128 .f32) (ha20 : a20.IsWhole)
    (h x : Vec F S64x2048 .f32) (cp : Vec F S64x128 .f32) (wfh wfx : Vec F S2048x128 .f32) (bf : Vec F S128 .f32)
    (wih wix : Vec F S2048x128 .f32) (bi : Vec F S128 .f32) (wch wcx : Vec F S2048x128 .f32) (bc : Vec F S128 .f32)
    (woh wox : Vec F S2048x128 .f32) (bo : Vec F S128 .f32) (wy : Vec F S2048x128 .f32) (by_ : Vec F S128 .f32) (K : PUnit → sProp 𝕄) :
    iprop(owns (c : Thread nD τ) a1 fullShare h ∗ owns (c : Thread nD τ) a2 fullShare x ∗ owns (c : Thread nD τ) a3 fullShare cp ∗ owns (c : Thread nD τ) a4 fullShare wfh ∗ owns (c : Thread nD τ) a5 fullShare wfx ∗ owns (c : Thread nD τ) a6 fullShare bf ∗ owns (c : Thread nD τ) a7 fullShare wih ∗ owns (c : Thread nD τ) a8 fullShare wix ∗ owns (c : Thread nD τ) a9 fullShare bi ∗ owns (c : Thread nD τ) a10 fullShare wch ∗ owns (c : Thread nD τ) a11 fullShare wcx ∗ owns (c : Thread nD τ) a12 fullShare bc ∗ owns (c : Thread nD τ) a13 fullShare woh ∗ owns (c : Thread nD τ) a14 fullShare wox ∗ owns (c : Thread nD τ) a15 fullShare bo ∗ owns (c : Thread nD τ) a16 fullShare wy ∗ owns (c : Thread nD τ) a17 fullShare by_
        ∗ (∃ d, owns (c : Thread nD τ) a18 fullShare d) ∗ (∃ d, owns (c : Thread nD τ) a19 fullShare d) ∗ (∃ d, owns (c : Thread nD τ) a20 fullShare d)
        ∗ (iprop(owns (c : Thread nD τ) a1 fullShare h ∗ owns (c : Thread nD τ) a2 fullShare x ∗ owns (c : Thread nD τ) a3 fullShare cp ∗ owns (c : Thread nD τ) a4 fullShare wfh ∗ owns (c : Thread nD τ) a5 fullShare wfx ∗ owns (c : Thread nD τ) a6 fullShare bf ∗ owns (c : Thread nD τ) a7 fullShare wih ∗ owns (c : Thread nD τ) a8 fullShare wix ∗ owns (c : Thread nD τ) a9 fullShare bi ∗ owns (c : Thread nD τ) a10 fullShare wch ∗ owns (c : Thread nD τ) a11 fullShare wcx ∗ owns (c : Thread nD τ) a12 fullShare bc ∗ owns (c : Thread nD τ) a13 fullShare woh ∗ owns (c : Thread nD τ) a14 fullShare wox ∗ owns (c : Thread nD τ) a15 fullShare bo ∗ owns (c : Thread nD τ) a16 fullShare wy ∗ owns (c : Thread nD τ) a17 fullShare by_
            ∗ owns (c : Thread nD τ) a18 fullShare (yBlock h wy by_) ∗ owns (c : Thread nD τ) a19 fullShare (hBlock h x cp wfh wfx bf wih wix bi wch wcx bc woh wox bo)
            ∗ owns (c : Thread nD τ) a20 fullShare (cBlock h x cp wfh wfx bf wih wix bi wch wcx bc)) -∗ K ⟨⟩))
      ⊢ wp frame (wpE (defs₀ (F := F)) Variants.none c none) E (cc0__lstm_kernel i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20) K := by
  simp only [cc0__lstm_kernel_eq_skeleton]; unfold cc0__lstm_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    rw [View.read_writes_eq_canon _ _ _ (whole_store_covers _)]
    sl_unfold_words
    rw [View.canon_unit_zero zero2]
    unfold yBlock
    simp only [View.readAt_eq_ld, View.ld_unit_zero (S := S64x2048) zero2, View.ld_unit_zero (S := S64x128) zero2,
      View.ld_unit_zero (S := S2048x128) zero2, View.ld_unit_zero (S := S128) zero1]
  isplitl [H19]
  · iexists _; isplitr
    swap; · iexact H19
    ipureintro
    rw [View.read_writes_eq_canon _ _ _ (whole_store_covers _)]
    sl_unfold_words
    rw [View.canon_unit_zero zero2]
    unfold hBlock
    simp only [View.readAt_eq_ld, View.ld_unit_zero (S := S64x2048) zero2, View.ld_unit_zero (S := S64x128) zero2,
      View.ld_unit_zero (S := S2048x128) zero2, View.ld_unit_zero (S := S128) zero1]
  iexists _; isplitr
  swap; · iexact H20
  ipureintro
  rw [View.read_writes_eq_canon _ _ _ (whole_store_covers _)]
  sl_unfold_words
  rw [View.canon_unit_zero zero2]
  unfold cBlock
  simp only [View.readAt_eq_ld, View.ld_unit_zero (S := S64x2048) zero2, View.ld_unit_zero (S := S64x128) zero2,
    View.ld_unit_zero (S := S2048x128) zero2, View.ld_unit_zero (S := S128) zero1]

end Cert.KernelIdeal.Lstm

end
-- ==== Proof.KernelIdealFrame.lean ====
/-
  The LSTM kernel program runs to its end and leaves its arguments unchanged.

  The program is one pipelined region followed by one host operation that joins the region's three result arrays.
  At every grid point each input's current staging buffer holds that input's block (fetched there, or, for the two
  resident inputs, still there from the first point), so the body's triple applies; the region's run then has every
  argument array at its entry contents (an input's array is never written back), and the joining operation writes
  only its own result buffer.
-/
import proofs.«151199_j11879879542513_1_alg».proof.Proof.KernelIdealBody

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The joining operation allocates nothing. -/
theorem join_fresh : (hostOps1 : List (HloOp τ sig (Elt F))).Forall fun op => op.fresh = ∅ := by
  simp only [List.Forall]; repeat' constructor

/-- The program is the region continued by the joining operation; nothing runs before the region. -/
theorem main_around (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] (by simp only [List.Forall]) (by simp only [List.Forall]) main_chain

/-- The joining operation touches the pipeline's arrays and the one buffer outside it only. -/
theorem join_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem join_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp join_fresh) op hop

/-- It writes its own result buffer, which is no array of the pipeline. -/
theorem join_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.nary_writes, Finset.mem_singleton] <;> exact StableHlo.devRef_ne_of_ne (by decide)

/-- With nothing before the region, a buffer at the region's entry holds its launch contents. -/
theorem entryAt_eq (c : Dev nD) (b : Ref sig .tc) : entryAt m c b = m ((c : Thread nD τ).loc b) := rfl

/-! ## Every input's staging buffer holds its block at every point -/

theorem before_in0 (c : Dev nD) (t : Fin cfg0.N) (d) : (dats m 0 c).before 0 t d = blockAt m c 0 t :=
  ((dats m 0 c).before_in_eq_fetched 0 rfl (fun _ => rfl) (fun _ _ _ => rfl)
      (fun t => by rw [after_in0]; unfold Dat.blockOf blockAt; rw [dats_A]; try rfl) t d).trans
    (by unfold Dat.fetched Dat.blockOf blockAt; rw [dats_A]; try rfl)
theorem before_in1 (c : Dev nD) (t : Fin cfg0.N) (d) : (dats m 0 c).before 1 t d = blockAt m c 1 t :=
  ((dats m 0 c).before_in_eq_fetched 1 rfl (fun _ => rfl) (fun _ _ _ => rfl)
      (fun t => by rw [after_in1]; unfold Dat.blockOf blockAt; rw [dats_A]; try rfl) t d).trans
    (by unfold Dat.fetched Dat.blockOf blockAt; rw [dats_A]; try rfl)
theorem before_in2 (c : Dev nD) (t : Fin cfg0.N) (d) : (dats m 0 c).before 2 t d = blockAt m c 2 t :=
  ((dats m 0 c).before_in_eq_fetched 2 rfl (fun _ => rfl) (fun _ _ _ => rfl)
      (fun t => by rw [after_in2]; unfold Dat.blockOf blockAt; rw [dats_A]; try rfl) t d).trans
    (by unfold Dat.fetched Dat.blockOf blockAt; rw [dats_A]; try rfl)
theorem before_in3 (c : Dev nD) (t : Fin cfg0.N) (d) : (dats m 0 c).before 3 t d = blockAt m c 3 t :=
  ((dats m 0 c).before_in_eq_fetched 3 rfl (fun _ => rfl) (fun _ _ _ => rfl)
      (fun t => by rw [after_in3]; unfold Dat.blockOf blockAt; rw [dats_A]; try rfl) t d).trans
    (by unfold Dat.fetched Dat.blockOf blockAt; rw [dats_A]; try rfl)
theorem before_in4 (c : Dev nD) (t : Fin cfg0.N) (d) : (dats m 0 c).before 4 t d = blockAt m c 4 t :=
  ((dats m 0 c).before_in_eq_fetched 4 rfl (fun _ => rfl) (fun _ _ _ => rfl)
      (fun t => by rw [after_in4]; unfold Dat.blockOf blockAt; rw [dats_A]; try rfl) t d).trans
    (by unfold Dat.fetched Dat.blockOf blockAt; rw [dats_A]; try rfl)
theorem before_in5 (c : Dev nD) (t : Fin cfg0.N) (d) : (dats m 0 c).before 5 t d = blockAt m c 5 t :=
  ((dats m 0 c).before_in_eq_fetched 5 rfl (fun _ => rfl) (fun _ _ _ => rfl)
      (fun t => by rw [after_in5]; unfold Dat.blockOf blockAt; rw [dats_A]; try rfl) t d).trans
    (by unfold Dat.fetched Dat.blockOf blockAt; rw [dats_A]; try rfl)
theorem before_in6 (c : Dev nD) (t : Fin cfg0.N) (d) : (dats m 0 c).before 6 t d = blockAt m c 6 t :=
  ((dats m 0 c).before_in_eq_fetched 6 rfl (fun _ => rfl) (fun _ _ _ => rfl)
      (fun t => by rw [after_in6]; unfold Dat.blockOf blockAt; rw [dats_A]; try rfl) t d).trans
    (by unfold Dat.fetched Dat.blockOf blockAt; rw [dats_A]; try rfl)
theorem before_in7 (c : Dev nD) (t : Fin cfg0.N) (d) : (dats m 0 c).before 7 t d = blockAt m c 7 t :=
  ((dats m 0 c).before_in_eq_fetched 7 rfl (fun _ => rfl) (fun _ _ _ => rfl)
      (fun t => by rw [after_in7]; unfold Dat.blockOf blockAt; rw [dats_A]; try rfl) t d).trans
    (by unfold Dat.fetched Dat.blockOf blockAt; rw [dats_A]; try rfl)
theorem before_in8 (c : Dev nD) (t : Fin cfg0.N) (d) : (dats m 0 c).before 8 t d = blockAt m c 8 t :=
  ((dats m 0 c).before_in_eq_fetched 8 rfl (fun _ => rfl) (fun _ _ _ => rfl)
      (fun t => by rw [after_in8]; unfold Dat.blockOf blockAt; rw [dats_A]; try rfl) t d).trans
    (by unfold Dat.fetched Dat.blockOf blockAt; rw [dats_A]; try rfl)
theorem before_in9 (c : Dev nD) (t : Fin cfg0.N) (d) : (dats m 0 c).before 9 t d = blockAt m c 9 t :=
  ((dats m 0 c).before_in_eq_fetched 9 rfl (fun _ => rfl) (fun _ _ _ => rfl)
      (fun t => by rw [after_in9]; unfold Dat.blockOf blockAt; rw [dats_A]; try rfl) t d).trans
    (by unfold Dat.fetched Dat.blockOf blockAt; rw [dats_A]; try rfl)
theorem before_in10 (c : Dev nD) (t : Fin cfg0.N) (d) : (dats m 0 c).before 10 t d = blockAt m c 10 t :=
  ((dats m 0 c).before_in_eq_fetched 10 rfl (fun _ => rfl) (fun _ _ _ => rfl)
      (fun t => by rw [after_in10]; unfold Dat.blockOf blockAt; rw [dats_A]; try rfl) t d).trans
    (by unfold Dat.fetched Dat.blockOf blockAt; rw [dats_A]; try rfl)
theorem before_in11 (c : Dev nD) (t : Fin cfg0.N) (d) : (dats m 0 c).before 11 t d = blockAt m c 11 t :=
  ((dats m 0 c).before_in_eq_fetched 11 rfl (fun _ => rfl) (fun _ _ _ => rfl)
      (fun t => by rw [after_in11]; unfold Dat.blockOf blockAt; rw [dats_A]; try rfl) t d).trans
    (by unfold Dat.fetched Dat.blockOf blockAt; rw [dats_A]; try rfl)
theorem before_in12 (c : Dev nD) (t : Fin cfg0.N) (d) : (dats m 0 c).before 12 t d = blockAt m c 12 t :=
  ((dats m 0 c).before_in_eq_fetched 12 rfl (fun _ => rfl) (fun _ _ _ => rfl)
      (fun t => by rw [after_in12]; unfold Dat.blockOf blockAt; rw [dats_A]; try rfl) t d).trans
    (by unfold Dat.fetched Dat.blockOf blockAt; rw [dats_A]; try rfl)
theorem before_in13 (c : Dev nD) (t : Fin cfg0.N) (d) : (dats m 0 c).before 13 t d = blockAt m c 13 t :=
  ((dats m 0 c).before_in_eq_fetched 13 rfl (fun _ => rfl) (fun _ _ _ => rfl)
      (fun t => by rw [after_in13]; unfold Dat.blockOf blockAt; rw [dats_A]; try rfl) t d).trans
    (by unfold Dat.fetched Dat.blockOf blockAt; rw [dats_A]; try rfl)
theorem before_in14 (c : Dev nD) (t : Fin cfg0.N) (d) : (dats m 0 c).before 14 t d = blockAt m c 14 t :=
  ((dats m 0 c).before_in_eq_fetched 14 rfl (fun _ => rfl) (fun _ _ _ => rfl)
      (fun t => by rw [after_in14]; unfold Dat.blockOf blockAt; rw [dats_A]; try rfl) t d).trans
    (by unfold Dat.fetched Dat.blockOf blockAt; rw [dats_A]; try rfl)
theorem before_in15 (c : Dev nD) (t : Fin cfg0.N) (d) : (dats m 0 c).before 15 t d = blockAt m c 15 t :=
  ((dats m 0 c).before_in_eq_fetched 15 rfl (fun _ => rfl) (fun _ _ _ => rfl)
      (fun t => by rw [after_in15]; unfold Dat.blockOf blockAt; rw [dats_A]; try rfl) t d).trans
    (by unfold Dat.fetched Dat.blockOf blockAt; rw [dats_A]; try rfl)
theorem before_in16 (c : Dev nD) (t : Fin cfg0.N) (d) : (dats m 0 c).before 16 t d = blockAt m c 16 t :=
  ((dats m 0 c).before_in_eq_fetched 16 rfl (fun _ => rfl) (fun _ _ _ => rfl)
      (fun t => by rw [after_in16]; unfold Dat.blockOf blockAt; rw [dats_A]; try rfl) t d).trans
    (by unfold Dat.fetched Dat.blockOf blockAt; rw [dats_A]; try rfl)

/-! ## The body obligation -/

/-- What the body is called with at point `t`: the region's invariant, nothing owed, and the twenty current staging
    buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10, before_in11, before_in12, before_in13, before_in14, before_in15, before_in16]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9, after_in10, after_in11, after_in12, after_in13, after_in14, after_in15, after_in16, after_y, after_h, after_c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (body_run c Set.univ (grid0.coords t) _ _ _ _ _ _ _ _ _ _ _ _ _ _ _ _ _ _ _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program terminates without a fault; at the end each array of the pipeline holds
    what the proof data computes and the joined result buffer what the joining operation makes of the three results. -/
theorem region_run : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := join_sub) (hfresh := join_fresh') (hkeep := join_keeps)
    (hmain := main_around m Variants.none) (hA := dats_A m) (hΦ := fun _ _ => rfl)

/-- An input window's array ends at its launch contents: it is never written back. -/
theorem arg_kept (c : Dev nD) (w : Fin cfg0.W) (hin : (cfg0.win w).isOut = false) :
    (dats m 0 c).arrAt w cfg0.N = m ((c : Thread nD τ).loc (Pipeline.arrRef spec0 w)) :=
  ((dats m 0 c).arrAt_in w hin cfg0.N).trans (dats_A m c w)

/-- The frame: the program terminates and its seventeen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 1).trans (arg_kept m c 1 rfl),
    ((h c).1 0).trans (arg_kept m c 0 rfl),
    ((h c).1 2).trans (arg_kept m c 2 rfl),
    ((h c).1 3).trans (arg_kept m c 3 rfl),
    ((h c).1 4).trans (arg_kept m c 4 rfl),
    ((h c).1 5).trans (arg_kept m c 5 rfl),
    ((h c).1 6).trans (arg_kept m c 6 rfl),
    ((h c).1 7).trans (arg_kept m c 7 rfl),
    ((h c).1 8).trans (arg_kept m c 8 rfl),
    ((h c).1 12).trans (arg_kept m c 12 rfl),
    ((h c).1 13).trans (arg_kept m c 13 rfl),
    ((h c).1 14).trans (arg_kept m c 14 rfl),
    ((h c).1 9).trans (arg_kept m c 9 rfl),
    ((h c).1 10).trans (arg_kept m c 10 rfl),
    ((h c).1 11).trans (arg_kept m c 11 rfl),
    ((h c).1 15).trans (arg_kept m c 15 rfl),
    ((h c).1 16).trans (arg_kept m c 16 rfl)⟩) (region_run m ρ)

end Cert.KernelIdeal.Lstm

end
-- ==== Proof.KernelIdealResult.lean ====
/-
  The LSTM kernel program's run with its result named: the packed result buffer ends holding the three final
  arrays of the region — projection, new hidden state, new cell state — joined side by side along the feature
  axis, and the arguments end unchanged.
-/
import proofs.«151199_j11879879542513_1_alg».proof.Proof.KernelIdealFrame
import Idealize.ShloMosaic.Lib.StableHlo.Run

set_option maxRecDepth 16384

noncomputable section

namespace Cert.KernelIdeal.Lstm

open Cert.KernelIdeal Cert.KernelIdeal.Gen
open Idealize.ShloMosaic Idealize.ShloMosaic.TcCoe Idealize.ShloMosaic.StableHlo
open Idealize.SL Idealize.SL.RA Idealize.SL.BI Idealize.SL.Sem
open Idealize.ShloMosaic.Rounds
open Idealize.ShloMosaic.Pipeline (Dat Cfg Window)

variable {F : FTy → Type} [FloatOps F]
variable (m : (ℓ : Loc nD τ sig) → Buf (Elt F) ℓ) (ρ : Dev nD → PrngReg)

/-- Three [64, 2048] arrays side by side: [64, 6144]. -/
def joined (y h c : Vec F S64x2048 .f32) : Vec F S64x6144 .f32 :=
  concatenate S64x6144 1 [⟨S64x2048, y⟩, ⟨S64x2048, h⟩, ⟨S64x2048, c⟩] concatenates_S64x2048_S64x2048_S64x2048_S64x6144_d1

/-- The packed result on core `c`: the region's three final arrays, joined. -/
def packed (c : Dev nD) : Buf (Elt F) ((c.tc : Thread nD τ).loc main_v1) :=
  joined ((dats m 0 c).arrAt 17 cfg0.N) ((dats m 0 c).arrAt 18 cfg0.N) ((dats m 0 c).arrAt 19 cfg0.N)

/-- The joining operation, run from the region's exit, leaves the packed result in its buffer. -/
theorem join_result (c : Dev nD) :
    Pipeline.afterTail₀ cfgs (dats m) 0 (entryVal m) [hostOps1] c main_v1 = packed m c := by
  unfold Pipeline.afterTail₀
  show StableHlo.after hostOps1 _ (Proc.devRef .tc main_v1) = _
  after_results
  show concatenate S64x6144 1 [⟨S64x2048, Pipeline.withArrays spec0 c (entryVal m c) (fun w => (dats m 0 c).arrAt w cfg0.N) (Proc.devRef .tc (Pipeline.arrRef spec0 17))⟩,
      ⟨S64x2048, Pipeline.withArrays spec0 c (entryVal m c) (fun w => (dats m 0 c).arrAt w cfg0.N) (Proc.devRef .tc (Pipeline.arrRef spec0 18))⟩,
      ⟨S64x2048, Pipeline.withArrays spec0 c (entryVal m c) (fun w => (dats m 0 c).arrAt w cfg0.N) (Proc.devRef .tc (Pipeline.arrRef spec0 19))⟩] concatenates_S64x2048_S64x2048_S64x2048_S64x6144_d1 = _
  rw [Pipeline.withArrays_arr spec0 launch0.win.arr_inj c _ _ 17, Pipeline.withArrays_arr spec0 launch0.win.arr_inj c _ _ 18,
    Pipeline.withArrays_arr spec0 launch0.win.arr_inj c _ _ 19]
  rfl

/-- The program's run: it terminates, its result buffer holds the packed result, its arguments are unchanged. -/
theorem run : θ_run defs (onTc (τ := τ) (main (F := F))) ⟨m, fun _ => 0, ρ⟩ (fun r => ∀ c : Dev nD,
      r.2.mem ((c.tc : Thread nD τ).loc main_v1) = packed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_v1 (Pipeline.mem_restRefs_of main_v1 (by decide) (by decide))).trans (join_result m c),
    ((h c).1 1).trans (arg_kept m c 1 rfl),
    ((h c).1 0).trans (arg_kept m c 0 rfl),
    ((h c).1 2).trans (arg_kept m c 2 rfl),
    ((h c).1 3).trans (arg_kept m c 3 rfl),
    ((h c).1 4).trans (arg_kept m c 4 rfl),
    ((h c).1 5).trans (arg_kept m c 5 rfl),
    ((h c).1 6).trans (arg_kept m c 6 rfl),
    ((h c).1 7).trans (arg_kept m c 7 rfl),
    ((h c).1 8).trans (arg_kept m c 8 rfl),
    ((h c).1 12).trans (arg_kept m c 12 rfl),
    ((h c).1 13).trans (arg_kept m c 13 rfl),
    ((h c).1 14).trans (arg_kept m c 14 rfl),
    ((h c).1 9).trans (arg_kept m c 9 rfl),
    ((h c).1 10).trans (arg_kept m c 10 rfl),
    ((h c).1 11).trans (arg_kept m c 11 rfl),
    ((h c).1 15).trans (arg_kept m c 15 rfl),
    ((h c).1 16).trans (arg_kept m c 16 rfl)⟩) (region_run m ρ)

end Cert.KernelIdeal.Lstm

end
-- ==== Proof.KernelIdealBlocks.lean ====
/-
  From the blocks the grid points write back to the whole result arrays, and each input block as columns of its array.

  Grid point t handles feature columns 128·t … 128·t + 127: feature `j` belongs to point j / 128, at column j mod 128 of
  that point's blocks. The sixteen points' output blocks are disjoint and tile each [64, 2048] result, so a result
  array at (r, j) is what point j / 128 stored at (r, j mod 128). An input block at that point and column is its
  array's entry in column j; the two resident inputs' one block is the whole array.
-/
import proofs.«151199_j11879879542513_1_alg».proof.Proof.KernelIdealData
import Idealize.ShloMosaic.Lib.Pipeline.Value
import Idealize.ShloMosaic.Lib.ValueIdx

set_option maxRecDepth 16384

noncomputable section

namespace Cert.KernelIdeal.Lstm

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window)

variable {F : FTy → Type} [FloatOps F]
variable (m : (ℓ : Loc nD τ sig) → Buf (Elt F) ℓ)

/-- The grid point that handles feature `j`. -/
def ptOf (j : Fin 2048) : Fin cfg0.N := ⟨j.val / 128, by rw [show cfg0.N = 16 from N_0]; have := j.isLt; omega⟩
/-- The column of feature `j` inside that point's blocks. -/
def colOf (j : Fin 2048) : Fin 128 := ⟨j.val % 128, Nat.mod_lt _ (by decide)⟩

/-! ## Features, points and columns -/

/-- Column `q` of point `t`'s blocks is feature 128·t + q: its point is `t`, -/
theorem ptOf_mk (t : Fin cfg0.N) (q : Fin 128) (h : 128 * t.val + q.val < 2048) : ptOf ⟨128 * t.val + q.val, h⟩ = t :=
  Fin.ext (show (128 * t.val + q.val) / 128 = t.val by have := q.isLt; omega)
/-- and its column is `q`. -/
theorem colOf_mk (t : Fin cfg0.N) (q : Fin 128) (h : 128 * t.val + q.val < 2048) : colOf ⟨128 * t.val + q.val, h⟩ = q :=
  Fin.ext (show (128 * t.val + q.val) % 128 = q.val by have := q.isLt; omega)
/-- Every column of every point is a feature. -/
theorem feat_lt (t : Fin cfg0.N) (q : Fin 128) : 128 * t.val + q.val < 2048 := by
  have h1 : t.val < 16 := lt_of_lt_of_eq t.isLt N_0
  have h2 := q.isLt
  omega

/-! ## The index maps, decided over the grid -/

/-- The two resident windows stay at block (0, 0). -/
theorem idx_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Every rank-2 window that moves is at block (0, t) at point t. -/
theorem idx_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem idx_3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
theorem idx_4 : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)
theorem idx_6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)
theorem idx_7 : ∀ t : Fin cfg0.N, win0_7.index t (0 : Fin 2) = 0 ∧ win0_7.index t (1 : Fin 2) = t.val :=
  (by decide +kernel : ∀ t : Fin grid0.N, win0_7.index t (0 : Fin 2) = 0 ∧ win0_7.index t (1 : Fin 2) = t.val)
theorem idx_9 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)
theorem idx_10 : ∀ t : Fin cfg0.N, win0_10.index t (0 : Fin 2) = 0 ∧ win0_10.index t (1 : Fin 2) = t.val :=
  (by decide +kernel : ∀ t : Fin grid0.N, win0_10.index t (0 : Fin 2) = 0 ∧ win0_10.index t (1 : Fin 2) = t.val)
theorem idx_12 : ∀ t : Fin cfg0.N, win0_12.index t (0 : Fin 2) = 0 ∧ win0_12.index t (1 : Fin 2) = t.val :=
  (by decide +kernel : ∀ t : Fin grid0.N, win0_12.index t (0 : Fin 2) = 0 ∧ win0_12.index t (1 : Fin 2) = t.val)
theorem idx_13 : ∀ t : Fin cfg0.N, win0_13.index t (0 : Fin 2) = 0 ∧ win0_13.index t (1 : Fin 2) = t.val :=
  (by decide +kernel : ∀ t : Fin grid0.N, win0_13.index t (0 : Fin 2) = 0 ∧ win0_13.index t (1 : Fin 2) = t.val)
theorem idx_15 : ∀ t : Fin cfg0.N, win0_15.index t (0 : Fin 2) = 0 ∧ win0_15.index t (1 : Fin 2) = t.val :=
  (by decide +kernel : ∀ t : Fin grid0.N, win0_15.index t (0 : Fin 2) = 0 ∧ win0_15.index t (1 : Fin 2) = t.val)
theorem idx_17 : ∀ t : Fin cfg0.N, win0_17.index t (0 : Fin 2) = 0 ∧ win0_17.index t (1 : Fin 2) = t.val :=
  (by decide +kernel : ∀ t : Fin grid0.N, win0_17.index t (0 : Fin 2) = 0 ∧ win0_17.index t (1 : Fin 2) = t.val)
theorem idx_18 : ∀ t : Fin cfg0.N, win0_18.index t (0 : Fin 2) = 0 ∧ win0_18.index t (1 : Fin 2) = t.val :=
  (by decide +kernel : ∀ t : Fin grid0.N, win0_18.index t (0 : Fin 2) = 0 ∧ win0_18.index t (1 : Fin 2) = t.val)
theorem idx_19 : ∀ t : Fin cfg0.N, win0_19.index t (0 : Fin 2) = 0 ∧ win0_19.index t (1 : Fin 2) = t.val :=
  (by decide +kernel : ∀ t : Fin grid0.N, win0_19.index t (0 : Fin 2) = 0 ∧ win0_19.index t (1 : Fin 2) = t.val)
/-- Every bias window is at block (t) at point t. -/
theorem idx_5 : ∀ t : Fin cfg0.N, win0_5.index t (0 : Fin 1) = t.val :=
  (by decide +kernel : ∀ t : Fin grid0.N, win0_5.index t (0 : Fin 1) = t.val)
theorem idx_8 : ∀ t : Fin cfg0.N, win0_8.index t (0 : Fin 1) = t.val :=
  (by decide +kernel : ∀ t : Fin grid0.N, win0_8.index t (0 : Fin 1) = t.val)
theorem idx_11 : ∀ t : Fin cfg0.N, win0_11.index t (0 : Fin 1) = t.val :=
  (by decide +kernel : ∀ t : Fin grid0.N, win0_11.index t (0 : Fin 1) = t.val)
theorem idx_14 : ∀ t : Fin cfg0.N, win0_14.index t (0 : Fin 1) = t.val :=
  (by decide +kernel : ∀ t : Fin grid0.N, win0_14.index t (0 : Fin 1) = t.val)
theorem idx_16 : ∀ t : Fin cfg0.N, win0_16.index t (0 : Fin 1) = t.val :=
  (by decide +kernel : ∀ t : Fin grid0.N, win0_16.index t (0 : Fin 1) = t.val)

/-! ## The result arrays, entry by entry

Each result is ONE function of the input blocks over the whole array; the block a point writes back is that function
read through the point's block, and the sixteen blocks cover the array. -/

/-- The output projection's array as one function of the input blocks: entry (r, j) is what point j / 128 stores at (r, j mod 128). -/
def yArr (c : Dev nD) : S64x2048.Idx → Elt F .f32 := fun i =>
  yBlock (blockAt m c 0 (ptOf (i 1))) (blockAt m c 15 (ptOf (i 1))) (blockAt m c 16 (ptOf (i 1))) (ix2 (i 0) (colOf (i 1)))

/-- That function at column `q` of point `t` is point `t`'s stored block at `q`. -/
theorem yArr_at (c : Dev nD) (t : Fin cfg0.N) (p : Fin 64) (q : Fin 128) (h : 128 * t.val + q.val < 2048) :
    yArr m c (ix2 p ⟨128 * t.val + q.val, h⟩)
      = yBlock (blockAt m c 0 t) (blockAt m c 15 t) (blockAt m c 16 t) (ix2 p q) := by
  show yBlock (blockAt m c 0 (ptOf ⟨128 * t.val + q.val, h⟩)) (blockAt m c 15 (ptOf ⟨128 * t.val + q.val, h⟩)) (blockAt m c 16 (ptOf ⟨128 * t.val + q.val, h⟩)) (ix2 p (colOf ⟨128 * t.val + q.val, h⟩)) = _
  rw [ptOf_mk, colOf_mk]

/-- Entry (p, q) of point `t`'s block of window 17 sits in the array at (p, 128·t + q). -/
theorem emb_17 (t : Fin cfg0.N) (p : Fin 64) (q : Fin 128) (h : 128 * t.val + q.val < 2048) :
    ((cfg0.win 17).blk t).view.emb (ix2 p q) = ix2 p ⟨128 * t.val + q.val, h⟩ := by
  obtain ⟨e0, e1⟩ := idx_17 t
  funext a; apply Fin.ext
  match a with
  | ⟨0, _⟩ => show win0_17.index t (0 : Fin 2) * 64 + 1 * p.val = p.val; omega
  | ⟨1, _⟩ => show win0_17.index t (1 : Fin 2) * 128 + 1 * q.val = 128 * t.val + q.val; omega

/-- What point `t` writes back is block `t` of that function. -/
theorem flushed_y (c : Dev nD) (t : Fin cfg0.N) :
    (dats m 0 c).flushed 17 t = ((cfg0.win 17).blk t).view.read (Elt F) (yArr m c) := by
  show (cfg0.win 17).cut (grid0.coords t) ((dats m 0 c).after 17 t) = _
  rw [after_y]
  funext y
  obtain ⟨p, q, rfl⟩ : ∃ (p : Fin 64) (q : Fin 128), y = ix2 p q := ⟨y 0, y 1, eq_ix2 (n0 := 64) (n1 := 128) y⟩
  show yBlock (blockAt m c 0 t) (blockAt m c 15 t) (blockAt m c 16 t) (ix2 p q) = yArr m c (((cfg0.win 17).blk t).view.emb (ix2 p q))
  rw [emb_17 t p q (feat_lt t q), yArr_at]

/-- An index of the array is in point `t`'s block iff each coordinate is in the block's range on its axis. -/
theorem mem_blk_17 (t : Fin cfg0.N) (i : S64x2048.Idx) :
    i ∈ ((cfg0.win 17).blk t).view.set ↔ ∀ a : Fin 2, win0_17.index t a * S64x128.size a ≤ (i a).val ∧ (i a).val < win0_17.index t a * S64x128.size a + S64x128.size a := by
  show i ∈ ((View.whole main_v0_0).slice (win0_17.rect t)).set ↔ _
  rw [View.set_slice_whole, Rect.mem_set_unit]
  exact Iff.rfl

/-- Column j of the array is in the block of point j / 128. -/
theorem cover_17 (i : S64x2048.Idx) : ∃ t : Fin cfg0.N, (cfg0.win 17).flush t = true ∧ i ∈ ((cfg0.win 17).blk t).view.set := by
  refine ⟨ptOf (i 1), flush0_17 _, ?_⟩
  rw [mem_blk_17]
  obtain ⟨e0, e1⟩ := idx_17 (ptOf (i 1))
  have h0 : (i 0).val < 64 := (i 0).isLt
  have h1 : (ptOf (i 1)).val = (i 1).val / 128 := rfl
  intro a
  match a with
  | ⟨0, _⟩ => show win0_17.index (ptOf (i 1)) (0 : Fin 2) * 64 ≤ (i 0).val ∧ (i 0).val < win0_17.index (ptOf (i 1)) (0 : Fin 2) * 64 + 64; omega
  | ⟨1, _⟩ => show win0_17.index (ptOf (i 1)) (1 : Fin 2) * 128 ≤ (i 1).val ∧ (i 1).val < win0_17.index (ptOf (i 1)) (1 : Fin 2) * 128 + 128; omega

/-- So the array ends holding that function. -/
theorem y_arr (c : Dev nD) : (dats m 0 c).arrAt 17 cfg0.N = yArr m c :=
  (dats m 0 c).arrAt_eq_of_cover 17 (yArr m c) (fun t _ => flushed_y m c t) cover_17

theorem y_at (c : Dev nD) (r : Fin 64) (j : Fin 2048) :
    (dats m 0 c).arrAt 17 cfg0.N (ix2 r j)
      = yBlock (blockAt m c 0 (ptOf j)) (blockAt m c 15 (ptOf j)) (blockAt m c 16 (ptOf j)) (ix2 r (colOf j)) := by
  rw [y_arr]; rfl

/-- The new hidden state's array as one function of the input blocks: entry (r, j) is what point j / 128 stores at (r, j mod 128). -/
def hArr (c : Dev nD) : S64x2048.Idx → Elt F .f32 := fun i =>
  hBlock (blockAt m c 0 (ptOf (i 1))) (blockAt m c 1 (ptOf (i 1))) (blockAt m c 2 (ptOf (i 1))) (blockAt m c 3 (ptOf (i 1))) (blockAt m c 4 (ptOf (i 1))) (blockAt m c 5 (ptOf (i 1))) (blockAt m c 6 (ptOf (i 1))) (blockAt m c 7 (ptOf (i 1))) (blockAt m c 8 (ptOf (i 1))) (blockAt m c 9 (ptOf (i 1))) (blockAt m c 10 (ptOf (i 1))) (blockAt m c 11 (ptOf (i 1))) (blockAt m c 12 (ptOf (i 1))) (blockAt m c 13 (ptOf (i 1))) (blockAt m c 14 (ptOf (i 1))) (ix2 (i 0) (colOf (i 1)))

/-- That function at column `q` of point `t` is point `t`'s stored block at `q`. -/
theorem hArr_at (c : Dev nD) (t : Fin cfg0.N) (p : Fin 64) (q : Fin 128) (h : 128 * t.val + q.val < 2048) :
    hArr m c (ix2 p ⟨128 * t.val + q.val, h⟩)
      = hBlock (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (ix2 p q) := by
  show hBlock (blockAt m c 0 (ptOf ⟨128 * t.val + q.val, h⟩)) (blockAt m c 1 (ptOf ⟨128 * t.val + q.val, h⟩)) (blockAt m c 2 (ptOf ⟨128 * t.val + q.val, h⟩)) (blockAt m c 3 (ptOf ⟨128 * t.val + q.val, h⟩)) (blockAt m c 4 (ptOf ⟨128 * t.val + q.val, h⟩)) (blockAt m c 5 (ptOf ⟨128 * t.val + q.val, h⟩)) (blockAt m c 6 (ptOf ⟨128 * t.val + q.val, h⟩)) (blockAt m c 7 (ptOf ⟨128 * t.val + q.val, h⟩)) (blockAt m c 8 (ptOf ⟨128 * t.val + q.val, h⟩)) (blockAt m c 9 (ptOf ⟨128 * t.val + q.val, h⟩)) (blockAt m c 10 (ptOf ⟨128 * t.val + q.val, h⟩)) (blockAt m c 11 (ptOf ⟨128 * t.val + q.val, h⟩)) (blockAt m c 12 (ptOf ⟨128 * t.val + q.val, h⟩)) (blockAt m c 13 (ptOf ⟨128 * t.val + q.val, h⟩)) (blockAt m c 14 (ptOf ⟨128 * t.val + q.val, h⟩)) (ix2 p (colOf ⟨128 * t.val + q.val, h⟩)) = _
  rw [ptOf_mk, colOf_mk]

/-- Entry (p, q) of point `t`'s block of window 18 sits in the array at (p, 128·t + q). -/
theorem emb_18 (t : Fin cfg0.N) (p : Fin 64) (q : Fin 128) (h : 128 * t.val + q.val < 2048) :
    ((cfg0.win 18).blk t).view.emb (ix2 p q) = ix2 p ⟨128 * t.val + q.val, h⟩ := by
  obtain ⟨e0, e1⟩ := idx_18 t
  funext a; apply Fin.ext
  match a with
  | ⟨0, _⟩ => show win0_18.index t (0 : Fin 2) * 64 + 1 * p.val = p.val; omega
  | ⟨1, _⟩ => show win0_18.index t (1 : Fin 2) * 128 + 1 * q.val = 128 * t.val + q.val; omega

/-- What point `t` writes back is block `t` of that function. -/
theorem flushed_h (c : Dev nD) (t : Fin cfg0.N) :
    (dats m 0 c).flushed 18 t = ((cfg0.win 18).blk t).view.read (Elt F) (hArr m c) := by
  show (cfg0.win 18).cut (grid0.coords t) ((dats m 0 c).after 18 t) = _
  rw [after_h]
  funext y
  obtain ⟨p, q, rfl⟩ : ∃ (p : Fin 64) (q : Fin 128), y = ix2 p q := ⟨y 0, y 1, eq_ix2 (n0 := 64) (n1 := 128) y⟩
  show hBlock (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (ix2 p q) = hArr m c (((cfg0.win 18).blk t).view.emb (ix2 p q))
  rw [emb_18 t p q (feat_lt t q), hArr_at]

/-- An index of the array is in point `t`'s block iff each coordinate is in the block's range on its axis. -/
theorem mem_blk_18 (t : Fin cfg0.N) (i : S64x2048.Idx) :
    i ∈ ((cfg0.win 18).blk t).view.set ↔ ∀ a : Fin 2, win0_18.index t a * S64x128.size a ≤ (i a).val ∧ (i a).val < win0_18.index t a * S64x128.size a + S64x128.size a := by
  show i ∈ ((View.whole main_v0_1).slice (win0_18.rect t)).set ↔ _
  rw [View.set_slice_whole, Rect.mem_set_unit]
  exact Iff.rfl

/-- Column j of the array is in the block of point j / 128. -/
theorem cover_18 (i : S64x2048.Idx) : ∃ t : Fin cfg0.N, (cfg0.win 18).flush t = true ∧ i ∈ ((cfg0.win 18).blk t).view.set := by
  refine ⟨ptOf (i 1), flush0_18 _, ?_⟩
  rw [mem_blk_18]
  obtain ⟨e0, e1⟩ := idx_18 (ptOf (i 1))
  have h0 : (i 0).val < 64 := (i 0).isLt
  have h1 : (ptOf (i 1)).val = (i 1).val / 128 := rfl
  intro a
  match a with
  | ⟨0, _⟩ => show win0_18.index (ptOf (i 1)) (0 : Fin 2) * 64 ≤ (i 0).val ∧ (i 0).val < win0_18.index (ptOf (i 1)) (0 : Fin 2) * 64 + 64; omega
  | ⟨1, _⟩ => show win0_18.index (ptOf (i 1)) (1 : Fin 2) * 128 ≤ (i 1).val ∧ (i 1).val < win0_18.index (ptOf (i 1)) (1 : Fin 2) * 128 + 128; omega

/-- So the array ends holding that function. -/
theorem h_arr (c : Dev nD) : (dats m 0 c).arrAt 18 cfg0.N = hArr m c :=
  (dats m 0 c).arrAt_eq_of_cover 18 (hArr m c) (fun t _ => flushed_h m c t) cover_18

theorem h_at (c : Dev nD) (r : Fin 64) (j : Fin 2048) :
    (dats m 0 c).arrAt 18 cfg0.N (ix2 r j)
      = hBlock (blockAt m c 0 (ptOf j)) (blockAt m c 1 (ptOf j)) (blockAt m c 2 (ptOf j)) (blockAt m c 3 (ptOf j)) (blockAt m c 4 (ptOf j)) (blockAt m c 5 (ptOf j)) (blockAt m c 6 (ptOf j)) (blockAt m c 7 (ptOf j)) (blockAt m c 8 (ptOf j)) (blockAt m c 9 (ptOf j)) (blockAt m c 10 (ptOf j)) (blockAt m c 11 (ptOf j)) (blockAt m c 12 (ptOf j)) (blockAt m c 13 (ptOf j)) (blockAt m c 14 (ptOf j)) (ix2 r (colOf j)) := by
  rw [h_arr]; rfl

/-- The new cell state's array as one function of the input blocks: entry (r, j) is what point j / 128 stores at (r, j mod 128). -/
def cArr (c : Dev nD) : S64x2048.Idx → Elt F .f32 := fun i =>
  cBlock (blockAt m c 0 (ptOf (i 1))) (blockAt m c 1 (ptOf (i 1))) (blockAt m c 2 (ptOf (i 1))) (blockAt m c 3 (ptOf (i 1))) (blockAt m c 4 (ptOf (i 1))) (blockAt m c 5 (ptOf (i 1))) (blockAt m c 6 (ptOf (i 1))) (blockAt m c 7 (ptOf (i 1))) (blockAt m c 8 (ptOf (i 1))) (blockAt m c 9 (ptOf (i 1))) (blockAt m c 10 (ptOf (i 1))) (blockAt m c 11 (ptOf (i 1))) (ix2 (i 0) (colOf (i 1)))

/-- That function at column `q` of point `t` is point `t`'s stored block at `q`. -/
theorem cArr_at (c : Dev nD) (t : Fin cfg0.N) (p : Fin 64) (q : Fin 128) (h : 128 * t.val + q.val < 2048) :
    cArr m c (ix2 p ⟨128 * t.val + q.val, h⟩)
      = cBlock (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (ix2 p q) := by
  show cBlock (blockAt m c 0 (ptOf ⟨128 * t.val + q.val, h⟩)) (blockAt m c 1 (ptOf ⟨128 * t.val + q.val, h⟩)) (blockAt m c 2 (ptOf ⟨128 * t.val + q.val, h⟩)) (blockAt m c 3 (ptOf ⟨128 * t.val + q.val, h⟩)) (blockAt m c 4 (ptOf ⟨128 * t.val + q.val, h⟩)) (blockAt m c 5 (ptOf ⟨128 * t.val + q.val, h⟩)) (blockAt m c 6 (ptOf ⟨128 * t.val + q.val, h⟩)) (blockAt m c 7 (ptOf ⟨128 * t.val + q.val, h⟩)) (blockAt m c 8 (ptOf ⟨128 * t.val + q.val, h⟩)) (blockAt m c 9 (ptOf ⟨128 * t.val + q.val, h⟩)) (blockAt m c 10 (ptOf ⟨128 * t.val + q.val, h⟩)) (blockAt m c 11 (ptOf ⟨128 * t.val + q.val, h⟩)) (ix2 p (colOf ⟨128 * t.val + q.val, h⟩)) = _
  rw [ptOf_mk, colOf_mk]

/-- Entry (p, q) of point `t`'s block of window 19 sits in the array at (p, 128·t + q). -/
theorem emb_19 (t : Fin cfg0.N) (p : Fin 64) (q : Fin 128) (h : 128 * t.val + q.val < 2048) :
    ((cfg0.win 19).blk t).view.emb (ix2 p q) = ix2 p ⟨128 * t.val + q.val, h⟩ := by
  obtain ⟨e0, e1⟩ := idx_19 t
  funext a; apply Fin.ext
  match a with
  | ⟨0, _⟩ => show win0_19.index t (0 : Fin 2) * 64 + 1 * p.val = p.val; omega
  | ⟨1, _⟩ => show win0_19.index t (1 : Fin 2) * 128 + 1 * q.val = 128 * t.val + q.val; omega

/-- What point `t` writes back is block `t` of that function. -/
theorem flushed_c (c : Dev nD) (t : Fin cfg0.N) :
    (dats m 0 c).flushed 19 t = ((cfg0.win 19).blk t).view.read (Elt F) (cArr m c) := by
  show (cfg0.win 19).cut (grid0.coords t) ((dats m 0 c).after 19 t) = _
  rw [after_c]
  funext y
  obtain ⟨p, q, rfl⟩ : ∃ (p : Fin 64) (q : Fin 128), y = ix2 p q := ⟨y 0, y 1, eq_ix2 (n0 := 64) (n1 := 128) y⟩
  show cBlock (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (ix2 p q) = cArr m c (((cfg0.win 19).blk t).view.emb (ix2 p q))
  rw [emb_19 t p q (feat_lt t q), cArr_at]

/-- An index of the array is in point `t`'s block iff each coordinate is in the block's range on its axis. -/
theorem mem_blk_19 (t : Fin cfg0.N) (i : S64x2048.Idx) :
    i ∈ ((cfg0.win 19).blk t).view.set ↔ ∀ a : Fin 2, win0_19.index t a * S64x128.size a ≤ (i a).val ∧ (i a).val < win0_19.index t a * S64x128.size a + S64x128.size a := by
  show i ∈ ((View.whole main_v0_2).slice (win0_19.rect t)).set ↔ _
  rw [View.set_slice_whole, Rect.mem_set_unit]
  exact Iff.rfl

/-- Column j of the array is in the block of point j / 128. -/
theorem cover_19 (i : S64x2048.Idx) : ∃ t : Fin cfg0.N, (cfg0.win 19).flush t = true ∧ i ∈ ((cfg0.win 19).blk t).view.set := by
  refine ⟨ptOf (i 1), flush0_19 _, ?_⟩
  rw [mem_blk_19]
  obtain ⟨e0, e1⟩ := idx_19 (ptOf (i 1))
  have h0 : (i 0).val < 64 := (i 0).isLt
  have h1 : (ptOf (i 1)).val = (i 1).val / 128 := rfl
  intro a
  match a with
  | ⟨0, _⟩ => show win0_19.index (ptOf (i 1)) (0 : Fin 2) * 64 ≤ (i 0).val ∧ (i 0).val < win0_19.index (ptOf (i 1)) (0 : Fin 2) * 64 + 64; omega
  | ⟨1, _⟩ => show win0_19.index (ptOf (i 1)) (1 : Fin 2) * 128 ≤ (i 1).val ∧ (i 1).val < win0_19.index (ptOf (i 1)) (1 : Fin 2) * 128 + 128; omega

/-- So the array ends holding that function. -/
theorem c_arr (c : Dev nD) : (dats m 0 c).arrAt 19 cfg0.N = cArr m c :=
  (dats m 0 c).arrAt_eq_of_cover 19 (cArr m c) (fun t _ => flushed_c m c t) cover_19

theorem c_at (c : Dev nD) (r : Fin 64) (j : Fin 2048) :
    (dats m 0 c).arrAt 19 cfg0.N (ix2 r j)
      = cBlock (blockAt m c 0 (ptOf j)) (blockAt m c 1 (ptOf j)) (blockAt m c 2 (ptOf j)) (blockAt m c 3 (ptOf j)) (blockAt m c 4 (ptOf j)) (blockAt m c 5 (ptOf j)) (blockAt m c 6 (ptOf j)) (blockAt m c 7 (ptOf j)) (blockAt m c 8 (ptOf j)) (blockAt m c 9 (ptOf j)) (blockAt m c 10 (ptOf j)) (blockAt m c 11 (ptOf j)) (ix2 r (colOf j)) := by
  rw [c_arr]; rfl

/-! ## The input blocks as entries of their arrays -/

/-- The previous hidden state (window 0, argument 1) and the input (window 1, argument 0) are resident: their one
    block is the whole array, at every point. -/
theorem blk_hidden (c : Dev nD) (t : Fin cfg0.N) (i : S64x2048.Idx) : blockAt m c 0 t i = m ((c : Thread nD τ).loc main_arg1) i := by
  obtain ⟨e0, e1⟩ := idx_0 t
  unfold blockAt
  show entryAt m c main_arg1 (((cfg0.win 0).blk t).view.emb i) = entryAt m c main_arg1 i
  congr 1
  funext a; apply Fin.ext
  match a with
  | ⟨0, _⟩ => show win0_0.index t (0 : Fin 2) * 64 + 1 * (i 0).val = (i 0).val; omega
  | ⟨1, _⟩ => show win0_0.index t (1 : Fin 2) * 2048 + 1 * (i 1).val = (i 1).val; omega
theorem blk_input (c : Dev nD) (t : Fin cfg0.N) (i : S64x2048.Idx) : blockAt m c 1 t i = m ((c : Thread nD τ).loc main_arg0) i := by
  obtain ⟨e0, e1⟩ := idx_1 t
  unfold blockAt
  show entryAt m c main_arg0 (((cfg0.win 1).blk t).view.emb i) = entryAt m c main_arg0 i
  congr 1
  funext a; apply Fin.ext
  match a with
  | ⟨0, _⟩ => show win0_1.index t (0 : Fin 2) * 64 + 1 * (i 0).val = (i 0).val; omega
  | ⟨1, _⟩ => show win0_1.index t (1 : Fin 2) * 2048 + 1 * (i 1).val = (i 1).val; omega

/-- The previous cell state (window 2, argument 2). -/
theorem blk_cell (c : Dev nD) (r : Fin 64) (j : Fin 2048) :
    blockAt m c 2 (ptOf j) (ix2 r (colOf j)) = m ((c : Thread nD τ).loc main_arg2) (ix2 r j) := by
  obtain ⟨e0, e1⟩ := idx_2 (ptOf j)
  unfold blockAt
  show entryAt m c main_arg2 (((cfg0.win 2).blk (ptOf j)).view.emb (ix2 r (colOf j))) = entryAt m c main_arg2 (ix2 r j)
  congr 1
  funext a; apply Fin.ext
  match a with
  | ⟨0, _⟩ => show win0_2.index (ptOf j) (0 : Fin 2) * 64 + 1 * r.val = r.val; omega
  | ⟨1, _⟩ =>
    show win0_2.index (ptOf j) (1 : Fin 2) * 128 + 1 * (colOf j).val = j.val
    rw [e1]; show j.val / 128 * 128 + 1 * (j.val % 128) = j.val; omega

/-- Window 3 stages argument 3, a [2048, 2048] weight matrix, 128 columns at a time. -/
theorem blk_w3 (c : Dev nD) (k : Fin 2048) (j : Fin 2048) :
    blockAt m c 3 (ptOf j) (ix2 k (colOf j)) = m ((c : Thread nD τ).loc main_arg3) (ix2 k j) := by
  obtain ⟨e0, e1⟩ := idx_3 (ptOf j)
  unfold blockAt
  show entryAt m c main_arg3 (((cfg0.win 3).blk (ptOf j)).view.emb (ix2 k (colOf j))) = entryAt m c main_arg3 (ix2 k j)
  congr 1
  funext a; apply Fin.ext
  match a with
  | ⟨0, _⟩ => show win0_3.index (ptOf j) (0 : Fin 2) * 2048 + 1 * k.val = k.val; omega
  | ⟨1, _⟩ =>
    show win0_3.index (ptOf j) (1 : Fin 2) * 128 + 1 * (colOf j).val = j.val
    rw [e1]; show j.val / 128 * 128 + 1 * (j.val % 128) = j.val; omega

/-- Window 4 stages argument 4, a [2048, 2048] weight matrix, 128 columns at a time. -/
theorem blk_w4 (c : Dev nD) (k : Fin 2048) (j : Fin 2048) :
    blockAt m c 4 (ptOf j) (ix2 k (colOf j)) = m ((c : Thread nD τ).loc main_arg4) (ix2 k j) := by
  obtain ⟨e0, e1⟩ := idx_4 (ptOf j)
  unfold blockAt
  show entryAt m c main_arg4 (((cfg0.win 4).blk (ptOf j)).view.emb (ix2 k (colOf j))) = entryAt m c main_arg4 (ix2 k j)
  congr 1
  funext a; apply Fin.ext
  match a with
  | ⟨0, _⟩ => show win0_4.index (ptOf j) (0 : Fin 2) * 2048 + 1 * k.val = k.val; omega
  | ⟨1, _⟩ =>
    show win0_4.index (ptOf j) (1 : Fin 2) * 128 + 1 * (colOf j).val = j.val
    rw [e1]; show j.val / 128 * 128 + 1 * (j.val % 128) = j.val; omega

/-- Window 6 stages argument 6, a [2048, 2048] weight matrix, 128 columns at a time. -/
theorem blk_w6 (c : Dev nD) (k : Fin 2048) (j : Fin 2048) :
    blockAt m c 6 (ptOf j) (ix2 k (colOf j)) = m ((c : Thread nD τ).loc main_arg6) (ix2 k j) := by
  obtain ⟨e0, e1⟩ := idx_6 (ptOf j)
  unfold blockAt
  show entryAt m c main_arg6 (((cfg0.win 6).blk (ptOf j)).view.emb (ix2 k (colOf j))) = entryAt m c main_arg6 (ix2 k j)
  congr 1
  funext a; apply Fin.ext
  match a with
  | ⟨0, _⟩ => show win0_6.index (ptOf j) (0 : Fin 2) * 2048 + 1 * k.val = k.val; omega
  | ⟨1, _⟩ =>
    show win0_6.index (ptOf j) (1 : Fin 2) * 128 + 1 * (colOf j).val = j.val
    rw [e1]; show j.val / 128 * 128 + 1 * (j.val % 128) = j.val; omega

/-- Window 7 stages argument 7, a [2048, 2048] weight matrix, 128 columns at a time. -/
theorem blk_w7 (c : Dev nD) (k : Fin 2048) (j : Fin 2048) :
    blockAt m c 7 (ptOf j) (ix2 k (colOf j)) = m ((c : Thread nD τ).loc main_arg7) (ix2 k j) := by
  obtain ⟨e0, e1⟩ := idx_7 (ptOf j)
  unfold blockAt
  show entryAt m c main_arg7 (((cfg0.win 7).blk (ptOf j)).view.emb (ix2 k (colOf j))) = entryAt m c main_arg7 (ix2 k j)
  congr 1
  funext a; apply Fin.ext
  match a with
  | ⟨0, _⟩ => show win0_7.index (ptOf j) (0 : Fin 2) * 2048 + 1 * k.val = k.val; omega
  | ⟨1, _⟩ =>
    show win0_7.index (ptOf j) (1 : Fin 2) * 128 + 1 * (colOf j).val = j.val
    rw [e1]; show j.val / 128 * 128 + 1 * (j.val % 128) = j.val; omega

/-- Window 9 stages argument 12, a [2048, 2048] weight matrix, 128 columns at a time. -/
theorem blk_w9 (c : Dev nD) (k : Fin 2048) (j : Fin 2048) :
    blockAt m c 9 (ptOf j) (ix2 k (colOf j)) = m ((c : Thread nD τ).loc main_arg12) (ix2 k j) := by
  obtain ⟨e0, e1⟩ := idx_9 (ptOf j)
  unfold blockAt
  show entryAt m c main_arg12 (((cfg0.win 9).blk (ptOf j)).view.emb (ix2 k (colOf j))) = entryAt m c main_arg12 (ix2 k j)
  congr 1
  funext a; apply Fin.ext
  match a with
  | ⟨0, _⟩ => show win0_9.index (ptOf j) (0 : Fin 2) * 2048 + 1 * k.val = k.val; omega
  | ⟨1, _⟩ =>
    show win0_9.index (ptOf j) (1 : Fin 2) * 128 + 1 * (colOf j).val = j.val
    rw [e1]; show j.val / 128 * 128 + 1 * (j.val % 128) = j.val; omega

/-- Window 10 stages argument 13, a [2048, 2048] weight matrix, 128 columns at a time. -/
theorem blk_w10 (c : Dev nD) (k : Fin 2048) (j : Fin 2048) :
    blockAt m c 10 (ptOf j) (ix2 k (colOf j)) = m ((c : Thread nD τ).loc main_arg13) (ix2 k j) := by
  obtain ⟨e0, e1⟩ := idx_10 (ptOf j)
  unfold blockAt
  show entryAt m c main_arg13 (((cfg0.win 10).blk (ptOf j)).view.emb (ix2 k (colOf j))) = entryAt m c main_arg13 (ix2 k j)
  congr 1
  funext a; apply Fin.ext
  match a with
  | ⟨0, _⟩ => show win0_10.index (ptOf j) (0 : Fin 2) * 2048 + 1 * k.val = k.val; omega
  | ⟨1, _⟩ =>
    show win0_10.index (ptOf j) (1 : Fin 2) * 128 + 1 * (colOf j).val = j.val
    rw [e1]; show j.val / 128 * 128 + 1 * (j.val % 128) = j.val; omega

/-- Window 12 stages argument 9, a [2048, 2048] weight matrix, 128 columns at a time. -/
theorem blk_w12 (c : Dev nD) (k : Fin 2048) (j : Fin 2048) :
    blockAt m c 12 (ptOf j) (ix2 k (colOf j)) = m ((c : Thread nD τ).loc main_arg9) (ix2 k j) := by
  obtain ⟨e0, e1⟩ := idx_12 (ptOf j)
  unfold blockAt
  show entryAt m c main_arg9 (((cfg0.win 12).blk (ptOf j)).view.emb (ix2 k (colOf j))) = entryAt m c main_arg9 (ix2 k j)
  congr 1
  funext a; apply Fin.ext
  match a with
  | ⟨0, _⟩ => show win0_12.index (ptOf j) (0 : Fin 2) * 2048 + 1 * k.val = k.val; omega
  | ⟨1, _⟩ =>
    show win0_12.index (ptOf j) (1 : Fin 2) * 128 + 1 * (colOf j).val = j.val
    rw [e1]; show j.val / 128 * 128 + 1 * (j.val % 128) = j.val; omega

/-- Window 13 stages argument 10, a [2048, 2048] weight matrix, 128 columns at a time. -/
theorem blk_w13 (c : Dev nD) (k : Fin 2048) (j : Fin 2048) :
    blockAt m c 13 (ptOf j) (ix2 k (colOf j)) = m ((c : Thread nD τ).loc main_arg10) (ix2 k j) := by
  obtain ⟨e0, e1⟩ := idx_13 (ptOf j)
  unfold blockAt
  show entryAt m c main_arg10 (((cfg0.win 13).blk (ptOf j)).view.emb (ix2 k (colOf j))) = entryAt m c main_arg10 (ix2 k j)
  congr 1
  funext a; apply Fin.ext
  match a with
  | ⟨0, _⟩ => show win0_13.index (ptOf j) (0 : Fin 2) * 2048 + 1 * k.val = k.val; omega
  | ⟨1, _⟩ =>
    show win0_13.index (ptOf j) (1 : Fin 2) * 128 + 1 * (colOf j).val = j.val
    rw [e1]; show j.val / 128 * 128 + 1 * (j.val % 128) = j.val; omega

/-- Window 15 stages argument 15, a [2048, 2048] weight matrix, 128 columns at a time. -/
theorem blk_w15 (c : Dev nD) (k : Fin 2048) (j : Fin 2048) :
    blockAt m c 15 (ptOf j) (ix2 k (colOf j)) = m ((c : Thread nD τ).loc main_arg15) (ix2 k j) := by
  obtain ⟨e0, e1⟩ := idx_15 (ptOf j)
  unfold blockAt
  show entryAt m c main_arg15 (((cfg0.win 15).blk (ptOf j)).view.emb (ix2 k (colOf j))) = entryAt m c main_arg15 (ix2 k j)
  congr 1
  funext a; apply Fin.ext
  match a with
  | ⟨0, _⟩ => show win0_15.index (ptOf j) (0 : Fin 2) * 2048 + 1 * k.val = k.val; omega
  | ⟨1, _⟩ =>
    show win0_15.index (ptOf j) (1 : Fin 2) * 128 + 1 * (colOf j).val = j.val
    rw [e1]; show j.val / 128 * 128 + 1 * (j.val % 128) = j.val; omega

/-- Window 5 stages argument 5, a [2048] bias, 128 entries at a time. -/
theorem blk_b5 (c : Dev nD) (j : Fin 2048) :
    blockAt m c 5 (ptOf j) (ix1 (colOf j)) = m ((c : Thread nD τ).loc main_arg5) (ix1 j) := by
  have e0 := idx_5 (ptOf j)
  unfold blockAt
  show entryAt m c main_arg5 (((cfg0.win 5).blk (ptOf j)).view.emb (ix1 (colOf j))) = entryAt m c main_arg5 (ix1 j)
  congr 1
  funext a; apply Fin.ext
  match a with
  | ⟨0, _⟩ =>
    show win0_5.index (ptOf j) (0 : Fin 1) * 128 + 1 * (colOf j).val = j.val
    rw [e0]; show j.val / 128 * 128 + 1 * (j.val % 128) = j.val; omega

/-- Window 8 stages argument 8, a [2048] bias, 128 entries at a time. -/
theorem blk_b8 (c : Dev nD) (j : Fin 2048) :
    blockAt m c 8 (ptOf j) (ix1 (colOf j)) = m ((c : Thread nD τ).loc main_arg8) (ix1 j) := by
  have e0 := idx_8 (ptOf j)
  unfold blockAt
  show entryAt m c main_arg8 (((cfg0.win 8).blk (ptOf j)).view.emb (ix1 (colOf j))) = entryAt m c main_arg8 (ix1 j)
  congr 1
  funext a; apply Fin.ext
  match a with
  | ⟨0, _⟩ =>
    show win0_8.index (ptOf j) (0 : Fin 1) * 128 + 1 * (colOf j).val = j.val
    rw [e0]; show j.val / 128 * 128 + 1 * (j.val % 128) = j.val; omega

/-- Window 11 stages argument 14, a [2048] bias, 128 entries at a time. -/
theorem blk_b11 (c : Dev nD) (j : Fin 2048) :
    blockAt m c 11 (ptOf j) (ix1 (colOf j)) = m ((c : Thread nD τ).loc main_arg14) (ix1 j) := by
  have e0 := idx_11 (ptOf j)
  unfold blockAt
  show entryAt m c main_arg14 (((cfg0.win 11).blk (ptOf j)).view.emb (ix1 (colOf j))) = entryAt m c main_arg14 (ix1 j)
  congr 1
  funext a; apply Fin.ext
  match a with
  | ⟨0, _⟩ =>
    show win0_11.index (ptOf j) (0 : Fin 1) * 128 + 1 * (colOf j).val = j.val
    rw [e0]; show j.val / 128 * 128 + 1 * (j.val % 128) = j.val; omega

/-- Window 14 stages argument 11, a [2048] bias, 128 entries at a time. -/
theorem blk_b14 (c : Dev nD) (j : Fin 2048) :
    blockAt m c 14 (ptOf j) (ix1 (colOf j)) = m ((c : Thread nD τ).loc main_arg11) (ix1 j) := by
  have e0 := idx_14 (ptOf j)
  unfold blockAt
  show entryAt m c main_arg11 (((cfg0.win 14).blk (ptOf j)).view.emb (ix1 (colOf j))) = entryAt m c main_arg11 (ix1 j)
  congr 1
  funext a; apply Fin.ext
  match a with
  | ⟨0, _⟩ =>
    show win0_14.index (ptOf j) (0 : Fin 1) * 128 + 1 * (colOf j).val = j.val
    rw [e0]; show j.val / 128 * 128 + 1 * (j.val % 128) = j.val; omega

/-- Window 16 stages argument 16, a [2048] bias, 128 entries at a time. -/
theorem blk_b16 (c : Dev nD) (j : Fin 2048) :
    blockAt m c 16 (ptOf j) (ix1 (colOf j)) = m ((c : Thread nD τ).loc main_arg16) (ix1 j) := by
  have e0 := idx_16 (ptOf j)
  unfold blockAt
  show entryAt m c main_arg16 (((cfg0.win 16).blk (ptOf j)).view.emb (ix1 (colOf j))) = entryAt m c main_arg16 (ix1 j)
  congr 1
  funext a; apply Fin.ext
  match a with
  | ⟨0, _⟩ =>
    show win0_16.index (ptOf j) (0 : Fin 1) * 128 + 1 * (colOf j).val = j.val
    rw [e0]; show j.val / 128 * 128 + 1 * (j.val % 128) = j.val; omega

end Cert.KernelIdeal.Lstm

end
-- ==== Proof.CellSpec.lean ====
/-
  One step of an LSTM cell as functions over the extended reals.

  For a batch row `r` and a feature `j`, with `h` the previous hidden state, `x` the input and `c` the previous cell
  state, a gate's pre-activation is  a(r, j) = (Σₖ h(r, k)·Wh(k, j) + Σₖ x(r, k)·Wx(k, j)) + b(j);  the new cell state is
  σ(a_f)·c + σ(a_i)·tanh(a_c̃), the new hidden state σ(a_o)·tanh(new cell state), and the output projection
  Σₖ h(r, k)·Wy(k, j) + by(j), taken of the PREVIOUS hidden state. Here σ(z) = 1 / (1 + e^(−z)).

  The same formulas are stated for a BLOCK of 128 feature columns (weights [2048, 128], biases [128]); a block-level
  value is the array-level value at feature `j` as soon as the block's entries are the arrays' entries in column `j`
  (`*_blk_eq`): the sums run over the same index `k` on both sides, so no rearrangement of a sum is involved.
-/
import Idealize.ShloMosaic.PureOps.Ideal
import Idealize.ShloMosaic.Lib.ValueIdx

noncomputable section

namespace LstmCell

open Idealize.ShloMosaic Idealize.ShloMosaic.ValueIdx

/-- Activations [batch 64, features 2048]. -/
abbrev Acts : Type := (⟨2, ![64, 2048]⟩ : Shape).Idx → EReal
/-- A weight matrix [2048, 2048]. -/
abbrev Wts : Type := (⟨2, ![2048, 2048]⟩ : Shape).Idx → EReal
/-- A bias [2048]. -/
abbrev Bias : Type := (⟨1, ![2048]⟩ : Shape).Idx → EReal
/-- 128 columns of activations [64, 128]. -/
abbrev ActsBlk : Type := (⟨2, ![64, 128]⟩ : Shape).Idx → EReal
/-- 128 columns of a weight matrix [2048, 128]. -/
abbrev WtsBlk : Type := (⟨2, ![2048, 128]⟩ : Shape).Idx → EReal
/-- 128 entries of a bias [128]. -/
abbrev BiasBlk : Type := (⟨1, ![128]⟩ : Shape).Idx → EReal

/-! ## Array level -/

/-- A gate's pre-activation at row `r`, feature `j`. -/
def gate (h x : Acts) (Wh Wx : Wts) (b : Bias) (r : Fin 64) (j : Fin 2048) : EReal :=
  ((∑ k : Fin 2048, h (ix2 r k) * Wh (ix2 k j)) + (∑ k : Fin 2048, x (ix2 r k) * Wx (ix2 k j))) + b (ix1 j)

/-- The new cell state: forget gate times the old state plus input gate times the candidate. -/
def cell (h x c : Acts) (Wfh Wfx : Wts) (bf : Bias) (Wih Wix : Wts) (bi : Bias) (Wch Wcx : Wts) (bc : Bias)
    (r : Fin 64) (j : Fin 2048) : EReal :=
  Ideal.logistic (gate h x Wfh Wfx bf r j) * c (ix2 r j)
    + Ideal.logistic (gate h x Wih Wix bi r j) * Ideal.tanh (gate h x Wch Wcx bc r j)

/-- The new hidden state: output gate times tanh of the new cell state. -/
def hidden (h x c : Acts) (Wfh Wfx : Wts) (bf : Bias) (Wih Wix : Wts) (bi : Bias) (Wch Wcx : Wts) (bc : Bias)
    (Woh Wox : Wts) (bo : Bias) (r : Fin 64) (j : Fin 2048) : EReal :=
  Ideal.logistic (gate h x Woh Wox bo r j) * Ideal.tanh (cell h x c Wfh Wfx bf Wih Wix bi Wch Wcx bc r j)

/-- The output projection of the previous hidden state. -/
def proj (h : Acts) (Wy : Wts) (b : Bias) (r : Fin 64) (j : Fin 2048) : EReal :=
  (∑ k : Fin 2048, h (ix2 r k) * Wy (ix2 k j)) + b (ix1 j)

/-! ## Block level: 128 feature columns at a time -/

def gateBlk (h x : Acts) (wh wx : WtsBlk) (b : BiasBlk) (r : Fin 64) (q : Fin 128) : EReal :=
  ((∑ k : Fin 2048, h (ix2 r k) * wh (ix2 k q)) + (∑ k : Fin 2048, x (ix2 r k) * wx (ix2 k q))) + b (ix1 q)

def cellBlk (h x : Acts) (c : ActsBlk) (wfh wfx : WtsBlk) (bf : BiasBlk) (wih wix : WtsBlk) (bi : BiasBlk)
    (wch wcx : WtsBlk) (bc : BiasBlk) (r : Fin 64) (q : Fin 128) : EReal :=
  Ideal.logistic (gateBlk h x wfh wfx bf r q) * c (ix2 r q)
    + Ideal.logistic (gateBlk h x wih wix bi r q) * Ideal.tanh (gateBlk h x wch wcx bc r q)

def hiddenBlk (h x : Acts) (c : ActsBlk) (wfh wfx : WtsBlk) (bf : BiasBlk) (wih wix : WtsBlk) (bi : BiasBlk)
    (wch wcx : WtsBlk) (bc : BiasBlk) (woh wox : WtsBlk) (bo : BiasBlk) (r : Fin 64) (q : Fin 128) : EReal :=
  Ideal.logistic (gateBlk h x woh wox bo r q) * Ideal.tanh (cellBlk h x c wfh wfx bf wih wix bi wch wcx bc r q)

def projBlk (h : Acts) (wy : WtsBlk) (b : BiasBlk) (r : Fin 64) (q : Fin 128) : EReal :=
  (∑ k : Fin 2048, h (ix2 r k) * wy (ix2 k q)) + b (ix1 q)

/-! ## A block's values are the arrays' in its columns -/

/-- `w` is the 128 columns of `W` that hold column `j` at position `q`. -/
def ColOf (w : WtsBlk) (W : Wts) (q : Fin 128) (j : Fin 2048) : Prop := ∀ k : Fin 2048, w (ix2 k q) = W (ix2 k j)

theorem gate_blk_eq {h x : Acts} {wh wx : WtsBlk} {b : BiasBlk} {Wh Wx : Wts} {B : Bias} {q : Fin 128} {j : Fin 2048}
    (hh : ColOf wh Wh q j) (hx : ColOf wx Wx q j) (hb : b (ix1 q) = B (ix1 j)) (r : Fin 64) :
    gateBlk h x wh wx b r q = gate h x Wh Wx B r j := by
  unfold gateBlk gate
  have e1 : (∑ k : Fin 2048, h (ix2 r k) * wh (ix2 k q)) = ∑ k : Fin 2048, h (ix2 r k) * Wh (ix2 k j) :=
    Finset.sum_congr rfl fun k _ => by rw [hh k]
  have e2 : (∑ k : Fin 2048, x (ix2 r k) * wx (ix2 k q)) = ∑ k : Fin 2048, x (ix2 r k) * Wx (ix2 k j) :=
    Finset.sum_congr rfl fun k _ => by rw [hx k]
  rw [hb, e1, e2]

theorem proj_blk_eq {h : Acts} {wy : WtsBlk} {b : BiasBlk} {Wy : Wts} {B : Bias} {q : Fin 128} {j : Fin 2048}
    (hy : ColOf wy Wy q j) (hb : b (ix1 q) = B (ix1 j)) (r : Fin 64) :
    projBlk h wy b r q = proj h Wy B r j := by
  unfold projBlk proj
  have e1 : (∑ k : Fin 2048, h (ix2 r k) * wy (ix2 k q)) = ∑ k : Fin 2048, h (ix2 r k) * Wy (ix2 k j) :=
    Finset.sum_congr rfl fun k _ => by rw [hy k]
  rw [hb, e1]

theorem cell_blk_eq {h x c : Acts} {cb : ActsBlk} {wfh wfx wih wix wch wcx : WtsBlk} {bf bi bc : BiasBlk}
    {Wfh Wfx Wih Wix Wch Wcx : Wts} {Bf Bi Bc : Bias} {q : Fin 128} {j : Fin 2048} (r : Fin 64)
    (hc : cb (ix2 r q) = c (ix2 r j))
    (h1 : ColOf wfh Wfh q j) (h2 : ColOf wfx Wfx q j) (h3 : bf (ix1 q) = Bf (ix1 j))
    (h4 : ColOf wih Wih q j) (h5 : ColOf wix Wix q j) (h6 : bi (ix1 q) = Bi (ix1 j))
    (h7 : ColOf wch Wch q j) (h8 : ColOf wcx Wcx q j) (h9 : bc (ix1 q) = Bc (ix1 j)) :
    cellBlk h x cb wfh wfx bf wih wix bi wch wcx bc r q = cell h x c Wfh Wfx Bf Wih Wix Bi Wch Wcx Bc r j := by
  unfold cellBlk cell
  rw [gate_blk_eq h1 h2 h3, gate_blk_eq h4 h5 h6, gate_blk_eq h7 h8 h9, hc]

theorem hidden_blk_eq {h x c : Acts} {cb : ActsBlk} {wfh wfx wih wix wch wcx woh wox : WtsBlk} {bf bi bc bo : BiasBlk}
    {Wfh Wfx Wih Wix Wch Wcx Woh Wox : Wts} {Bf Bi Bc Bo : Bias} {q : Fin 128} {j : Fin 2048} (r : Fin 64)
    (hc : cb (ix2 r q) = c (ix2 r j))
    (h1 : ColOf wfh Wfh q j) (h2 : ColOf wfx Wfx q j) (h3 : bf (ix1 q) = Bf (ix1 j))
    (h4 : ColOf wih Wih q j) (h5 : ColOf wix Wix q j) (h6 : bi (ix1 q) = Bi (ix1 j))
    (h7 : ColOf wch Wch q j) (h8 : ColOf wcx Wcx q j) (h9 : bc (ix1 q) = Bc (ix1 j))
    (h10 : ColOf woh Woh q j) (h11 : ColOf wox Wox q j) (h12 : bo (ix1 q) = Bo (ix1 j)) :
    hiddenBlk h x cb wfh wfx bf wih wix bi wch wcx bc woh wox bo r q
      = hidden h x c Wfh Wfx Bf Wih Wix Bi Wch Wcx Bc Woh Wox Bo r j := by
  unfold hiddenBlk hidden
  rw [gate_blk_eq h10 h11 h12, cell_blk_eq r hc h1 h2 h3 h4 h5 h6 h7 h8 h9]

end LstmCell

end
-- ==== Proof.KernelPay.lean ====
/-
  The kernel body's three stored blocks, read at an entry, are the LSTM cell's block-level specification.

  Over the extended reals a change of float format is the identity and a matrix product into a zero accumulator is
  the plain sum over the contracted index, so the projection block at (r, q) is Σₖ h(r, k)·wy(k, q) + by(q), a gate's
  pre-activation (Σₖ h(r, k)·wh(k, q) + Σₖ x(r, k)·wx(k, q)) + b(q) (the bias, a [128] vector, viewed as one row and
  repeated down the 64 rows), and the kernel's logistic is 1 / (1 + e^(−z)).
-/
import proofs.«151199_j11879879542513_1_alg».proof.Proof.Gen.KernelIdeal.Skeleton
import proofs.«151199_j11879879542513_1_alg».proof.Proof.CellSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.CellPay

open Cert.KernelIdeal Cert.KernelIdeal.Gen
open Idealize.ShloMosaic Idealize.ShloMosaic.ValueIdx

/-! ## The matrix product's operand indices, one axis at a time -/

/-- The left operand's row is the result's row. -/
theorem lhs_dot_0 (i : S64x128.Idx) (q : dot_S64x2048_S2048x128_S64x128_1_0_0_1_n_n.contr.Idx) :
    (dot_S64x2048_S2048x128_S64x128_1_0_0_1_n_n.lhsIdx i q 0).val = (i 0).val := by
  unfold DotDims.lhsIdx
  rw [dif_neg (show ¬(0 : Fin S64x2048.rank) ∈ dot_S64x2048_S2048x128_S64x128_1_0_0_1_n_n.lhsBatch by decide), dif_pos (show (0 : Fin S64x2048.rank) ∈ dot_S64x2048_S2048x128_S64x128_1_0_0_1_n_n.lhsNonContracting by decide)]
  rfl
/-- The left operand's column is the contracted index. -/
theorem lhs_dot_1 (i : S64x128.Idx) (q : dot_S64x2048_S2048x128_S64x128_1_0_0_1_n_n.contr.Idx) :
    (dot_S64x2048_S2048x128_S64x128_1_0_0_1_n_n.lhsIdx i q 1).val = (q ⟨0, by decide⟩).val :=
  dot_S64x2048_S2048x128_S64x128_1_0_0_1_n_n.lhsIdx_val_of_single rfl i q
/-- The right operand's row is the contracted index. -/
theorem rhs_dot_0 (i : S64x128.Idx) (q : dot_S64x2048_S2048x128_S64x128_1_0_0_1_n_n.contr.Idx) :
    (dot_S64x2048_S2048x128_S64x128_1_0_0_1_n_n.rhsIdx i q 0).val = (q ⟨0, by decide⟩).val :=
  dot_S64x2048_S2048x128_S64x128_1_0_0_1_n_n.rhsIdx_val_of_single rfl i q
/-- The right operand's column is the result's column. -/
theorem rhs_dot_1 (i : S64x128.Idx) (q : dot_S64x2048_S2048x128_S64x128_1_0_0_1_n_n.contr.Idx) :
    (dot_S64x2048_S2048x128_S64x128_1_0_0_1_n_n.rhsIdx i q 1).val = (i 1).val := by
  unfold DotDims.rhsIdx
  rw [dif_neg (show ¬(1 : Fin S2048x128.rank) ∈ dot_S64x2048_S2048x128_S64x128_1_0_0_1_n_n.rhsBatch by decide), dif_pos (show (1 : Fin S2048x128.rank) ∈ dot_S64x2048_S2048x128_S64x128_1_0_0_1_n_n.rhsNonContracting by decide)]
  rfl

/-- A matrix product into the zero accumulator, read at (r, q): the sum over the contracted index k of
    l(r, k) · w(k, q). -/
theorem matmul_zero_apply (l : FVec Ideal S64x2048 .bf16) (w : FVec Ideal S2048x128 .bf16) (r : Fin 64) (q : Fin 128) :
    matmul dot_S64x2048_S2048x128_S64x128_1_0_0_1_n_n none l w (constant (F := Ideal) S64x128 .f32 0x00000000#32) (ix2 r q)
      = ∑ k : Fin 2048, l (ix2 r k) * w (ix2 k q) := by
  simp only [matmul]
  rw [Ideal.matmul_constant_zero_apply, ← Equiv.sum_comp (ValueIdx.contrEquiv1 dot_S64x2048_S2048x128_S64x128_1_0_0_1_n_n 2048 rfl rfl).symm]
  refine Finset.sum_congr rfl fun k _ => ?_
  have hk := ValueIdx.contrEquiv1_symm_val dot_S64x2048_S2048x128_S64x128_1_0_0_1_n_n 2048 rfl rfl k
  have el : dot_S64x2048_S2048x128_S64x128_1_0_0_1_n_n.lhsIdx (ix2 r q) ((ValueIdx.contrEquiv1 dot_S64x2048_S2048x128_S64x128_1_0_0_1_n_n 2048 rfl rfl).symm k) = ix2 r k := funext fun a => Fin.ext (by
    match a with
    | ⟨0, _⟩ => exact lhs_dot_0 _ _
    | ⟨1, _⟩ => exact (lhs_dot_1 _ _).trans hk)
  have er : dot_S64x2048_S2048x128_S64x128_1_0_0_1_n_n.rhsIdx (ix2 r q) ((ValueIdx.contrEquiv1 dot_S64x2048_S2048x128_S64x128_1_0_0_1_n_n 2048 rfl rfl).symm k) = ix2 k q := funext fun a => Fin.ext (by
    match a with
    | ⟨0, _⟩ => exact (rhs_dot_0 _ _).trans hk
    | ⟨1, _⟩ => exact rhs_dot_1 _ _)
  rw [el, er]

/-- A [128] vector viewed as one row and repeated down the 64 rows reads, at (r, q), its entry q. -/
theorem bias_row_apply (v : Vec Ideal S128 .f32) (r : Fin 64) (q : Fin 128) :
    broadcastTo S64x128 (shapeCast S1x128 v shapeCasts_S128_S1x128) broadcasts_S1x128_S64x128 (ix2 r q) = v (ix1 q) := by
  rw [broadcastTo_1b_ab_apply, shapeCast_a_1a_apply]

/-! ## The payloads at an entry -/

section Payloads

variable (h x : Vec Ideal S64x2048 .f32) (c : Vec Ideal S64x128 .f32)
variable (wfh wfx wih wix wch wcx woh wox wy : Vec Ideal S2048x128 .f32)
variable (bf bi bc bo b : Vec Ideal S128 .f32)

/-- One matrix product of a payload: both operands change float format (the identity over the extended reals), then
    the product into the zero accumulator is the plain sum. -/
theorem prod_apply (a : Vec Ideal S64x2048 .f32) (w : Vec Ideal S2048x128 .f32) (r : Fin 64) (q : Fin 128) :
    matmul dot_S64x2048_S2048x128_S64x128_1_0_0_1_n_n none (truncf .bf16 a bitsLt_bf16_f32) (truncf .bf16 w bitsLt_bf16_f32) (constant (F := Ideal) S64x128 .f32 0x00000000#32) (ix2 r q) = ∑ k : Fin 2048, a (ix2 r k) * w (ix2 k q) :=
  matmul_zero_apply (truncf .bf16 a bitsLt_bf16_f32) (truncf .bf16 w bitsLt_bf16_f32) r q

/-- The candidate's product with the hidden state. -/
theorem pay8_apply (r : Fin 64) (q : Fin 128) :
    k0_pay8 (F := Ideal) h wch (ix2 r q) = ∑ k : Fin 2048, h (ix2 r k) * wch (ix2 k q) := by
  unfold k0_pay8 k0_pay4
  exact prod_apply h wch r q

/-- The candidate's product with the input. -/
theorem pay9_apply (r : Fin 64) (q : Fin 128) :
    k0_pay9 (F := Ideal) x wcx (ix2 r q) = ∑ k : Fin 2048, x (ix2 r k) * wcx (ix2 k q) := by
  unfold k0_pay9 k0_pay5
  exact prod_apply x wcx r q

/-- A gate's pre-activation written as the kernel writes it: two products, added, plus the bias row. -/
theorem gate_apply (wh wx : Vec Ideal S2048x128 .f32) (v : Vec Ideal S128 .f32) (r : Fin 64) (q : Fin 128) :
    (matmul dot_S64x2048_S2048x128_S64x128_1_0_0_1_n_n none (truncf .bf16 h bitsLt_bf16_f32) (truncf .bf16 wh bitsLt_bf16_f32) (constant (F := Ideal) S64x128 .f32 0x00000000#32) (ix2 r q) + matmul dot_S64x2048_S2048x128_S64x128_1_0_0_1_n_n none (truncf .bf16 x bitsLt_bf16_f32) (truncf .bf16 wx bitsLt_bf16_f32) (constant (F := Ideal) S64x128 .f32 0x00000000#32) (ix2 r q)) + broadcastTo S64x128 (shapeCast S1x128 v shapeCasts_S128_S1x128) broadcasts_S1x128_S64x128 (ix2 r q)
      = LstmCell.gateBlk h x wh wx v r q := by
  rw [prod_apply, prod_apply, bias_row_apply]
  rfl

/-- The forget gate's pre-activation. -/
theorem pay6_apply (r : Fin 64) (q : Fin 128) :
    k0_pay6 (F := Ideal) h x wfh wfx bf (ix2 r q) = LstmCell.gateBlk h x wfh wfx bf r q := by
  unfold k0_pay6 k0_pay4 k0_pay5
  exact gate_apply h x wfh wfx bf r q

/-- The input gate's pre-activation. -/
theorem pay7_apply (r : Fin 64) (q : Fin 128) :
    k0_pay7 (F := Ideal) h x wih wix bi (ix2 r q) = LstmCell.gateBlk h x wih wix bi r q := by
  unfold k0_pay7 k0_pay4 k0_pay5
  exact gate_apply h x wih wix bi r q

end Payloads

variable (h x : Vec Ideal S64x2048 .f32) (c : Vec Ideal S64x128 .f32)
variable (wfh wfx wih wix wch wcx woh wox wy : Vec Ideal S2048x128 .f32)
variable (bf bi bc bo b : Vec Ideal S128 .f32)

/-- The projection block: `k0_pay3` is the store into the first output window, `k0_pay4 h` the hidden state's change of
    float format. -/
theorem pay_proj (r : Fin 64) (q : Fin 128) :
    k0_pay3 (F := Ideal) (k0_pay4 h) wy b (ix2 r q) = LstmCell.projBlk h wy b r q := by
  unfold k0_pay3 k0_pay4
  show matmul dot_S64x2048_S2048x128_S64x128_1_0_0_1_n_n none (truncf .bf16 h bitsLt_bf16_f32) (truncf .bf16 wy bitsLt_bf16_f32) (constant (F := Ideal) S64x128 .f32 0x00000000#32) (ix2 r q) + broadcastTo S64x128 (shapeCast S1x128 b shapeCasts_S128_S1x128) broadcasts_S1x128_S64x128 (ix2 r q) = _
  rw [prod_apply, bias_row_apply]
  rfl

/-- The new cell state's block: `k0_pay1` is the store into the third output window; `k0_pay6`, `k0_pay7` are the
    forget and input gates' pre-activations, `k0_pay8` and `k0_pay9` the candidate's two matrix products. -/
theorem pay_cell (r : Fin 64) (q : Fin 128) :
    k0_pay1 (F := Ideal) c (k0_pay6 h x wfh wfx bf) (k0_pay7 h x wih wix bi) (k0_pay8 h wch) (k0_pay9 x wcx) bc (ix2 r q)
      = LstmCell.cellBlk h x c wfh wfx bf wih wix bi wch wcx bc r q := by
  unfold k0_pay1 LstmCell.cellBlk
  show Ideal.logistic (k0_pay6 (F := Ideal) h x wfh wfx bf (ix2 r q)) * c (ix2 r q)
      + Ideal.logistic (k0_pay7 (F := Ideal) h x wih wix bi (ix2 r q))
        * Ideal.tanh ((k0_pay8 (F := Ideal) h wch (ix2 r q) + k0_pay9 (F := Ideal) x wcx (ix2 r q)) + broadcastTo S64x128 (shapeCast S1x128 bc shapeCasts_S128_S1x128) broadcasts_S1x128_S64x128 (ix2 r q)) = _
  rw [pay6_apply, pay7_apply, pay8_apply, pay9_apply, bias_row_apply]
  rfl

/-- The new hidden state's block: `k0_pay2` is the store into the second output window. -/
theorem pay_hidden (r : Fin 64) (q : Fin 128) :
    k0_pay2 (F := Ideal) (k0_pay4 h) (k0_pay5 x) c (k0_pay6 h x wfh wfx bf) (k0_pay7 h x wih wix bi) (k0_pay8 h wch)
        (k0_pay9 x wcx) bc woh wox bo (ix2 r q)
      = LstmCell.hiddenBlk h x c wfh wfx bf wih wix bi wch wcx bc woh wox bo r q := by
  unfold k0_pay2 k0_pay4 k0_pay5 LstmCell.hiddenBlk
  show Ideal.logistic ((matmul dot_S64x2048_S2048x128_S64x128_1_0_0_1_n_n none (truncf .bf16 h bitsLt_bf16_f32) (truncf .bf16 woh bitsLt_bf16_f32) (constant (F := Ideal) S64x128 .f32 0x00000000#32) (ix2 r q) + matmul dot_S64x2048_S2048x128_S64x128_1_0_0_1_n_n none (truncf .bf16 x bitsLt_bf16_f32) (truncf .bf16 wox bitsLt_bf16_f32) (constant (F := Ideal) S64x128 .f32 0x00000000#32) (ix2 r q)) + broadcastTo S64x128 (shapeCast S1x128 bo shapeCasts_S128_S1x128) broadcasts_S1x128_S64x128 (ix2 r q))
      * Ideal.tanh (k0_pay1 (F := Ideal) c (k0_pay6 h x wfh wfx bf) (k0_pay7 h x wih wix bi) (k0_pay8 h wch) (k0_pay9 x wcx) bc (ix2 r q)) = _
  rw [gate_apply, pay_cell]

end Cert.KernelIdeal.CellPay

end
-- ==== Proof.KernelIdealCell.lean ====
/-
  The kernel's three final arrays are the LSTM cell's specification, entry by entry.

  Entry (r, j) of a result array is what grid point j / 128 stored at (r, j mod 128); the stored block is the
  block-level specification of the input blocks at that point; and those blocks are the argument arrays' columns
  around j (the two resident inputs whole), so the block-level value is the array-level one.
-/
import proofs.«151199_j11879879542513_1_alg».proof.Proof.KernelIdealBlocks
import proofs.«151199_j11879879542513_1_alg».proof.Proof.KernelPay

set_option maxRecDepth 16384

noncomputable section

namespace Cert.KernelIdeal.Lstm

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window)

variable (m : (ℓ : Loc nD τ sig) → Buf (Elt Ideal) ℓ)

/-- The resident blocks are the whole arrays. -/
theorem hidden_block (c : Dev nD) (t : Fin cfg0.N) :
    (blockAt m c 0 t : Vec Ideal S64x2048 .f32) = (m ((c : Thread nD τ).loc main_arg1)) := funext (blk_hidden m c t)
theorem input_block (c : Dev nD) (t : Fin cfg0.N) :
    (blockAt m c 1 t : Vec Ideal S64x2048 .f32) = (m ((c : Thread nD τ).loc main_arg0)) := funext (blk_input m c t)

/-- The projection: argument 1 is the previous hidden state, 15 and 16 the projection's weights and bias. -/
theorem y_final (c : Dev nD) (r : Fin 64) (j : Fin 2048) :
    (dats m 0 c).arrAt 17 cfg0.N (ix2 r j) = LstmCell.proj (m ((c : Thread nD τ).loc main_arg1)) (m ((c : Thread nD τ).loc main_arg15)) (m ((c : Thread nD τ).loc main_arg16)) r j := by
  rw [y_at, hidden_block]
  exact (CellPay.pay_proj _ _ _ r (colOf j)).trans
    (LstmCell.proj_blk_eq (fun k => blk_w15 m c k j) (blk_b16 m c j) r)

/-- The new cell state: (3, 4, 5), (6, 7, 8), (12, 13, 14) are the forget, input and candidate gates' (Wh, Wx, b). -/
theorem c_final (c : Dev nD) (r : Fin 64) (j : Fin 2048) :
    (dats m 0 c).arrAt 19 cfg0.N (ix2 r j)
      = LstmCell.cell (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) r j := by
  rw [c_at, hidden_block, input_block]
  exact (CellPay.pay_cell _ _ _ _ _ _ _ _ _ _ _ _ r (colOf j)).trans
    (LstmCell.cell_blk_eq r (blk_cell m c r j)
      (fun k => blk_w3 m c k j) (fun k => blk_w4 m c k j) (blk_b5 m c j)
      (fun k => blk_w6 m c k j) (fun k => blk_w7 m c k j) (blk_b8 m c j)
      (fun k => blk_w9 m c k j) (fun k => blk_w10 m c k j) (blk_b11 m c j))

/-- The new hidden state: (9, 10, 11) are the output gate's (Wh, Wx, b). -/
theorem h_final (c : Dev nD) (r : Fin 64) (j : Fin 2048) :
    (dats m 0 c).arrAt 18 cfg0.N (ix2 r j)
      = LstmCell.hidden (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))
          (m ((c : Thread nD τ).loc main_arg9)) (m ((c : Thread nD τ).loc main_arg10)) (m ((c : Thread nD τ).loc main_arg11)) r j := by
  rw [h_at, hidden_block, input_block]
  exact (CellPay.pay_hidden _ _ _ _ _ _ _ _ _ _ _ _ _ _ _ r (colOf j)).trans
    (LstmCell.hidden_blk_eq r (blk_cell m c r j)
      (fun k => blk_w3 m c k j) (fun k => blk_w4 m c k j) (blk_b5 m c j)
      (fun k => blk_w6 m c k j) (fun k => blk_w7 m c k j) (blk_b8 m c j)
      (fun k => blk_w9 m c k j) (fun k => blk_w10 m c k j) (blk_b11 m c j)
      (fun k => blk_w12 m c k j) (fun k => blk_w13 m c k j) (blk_b14 m c j))

end Cert.KernelIdeal.Lstm

end
-- ==== Proof.RefRead.lean ====
/-
  The reference program's run, read one operation at a time (the generated run and its read-at-an-index lemmas),
  gathered under one import for the modules that compare the reference's result with the cell's specification.
-/
import proofs.«151199_j11879879542513_1_alg».proof.Proof.Gen.ReferenceIdeal.Run
import proofs.«151199_j11879879542513_1_alg».proof.Proof.Gen.ReferenceIdeal.Read
-- ==== Proof.RefCell.lean ====
/-
  The reference program's three result arrays are the LSTM cell's specification.

  The reference joins the four gates' weights side by side ([2048, 8192]), multiplies once, adds the joined bias and
  cuts the four gates' pre-activations back out; entry (r, 2048·g + j) of the joined product is the sum over k of
  h(r, k)·W_g(k, j), so each cut-out gate is the specification's `gate` of its own weights. The sigmoid is spelt
  1 / (1 + e^(−z)).
-/
import proofs.«151199_j11879879542513_1_alg».proof.Proof.RefRead
import proofs.«151199_j11879879542513_1_alg».proof.Proof.CellSpec
import Idealize.ShloMosaic.Lib.IdealHost

noncomputable section

namespace Cert.ReferenceIdeal.CellRef

open Cert.ReferenceIdeal Cert.ReferenceIdeal.Gen Cert.ReferenceIdeal.Read
open Idealize.ShloMosaic Idealize.ShloMosaic.ValueIdx

/-! ## Four joined pieces read at an index -/

/-- One of four things, by its number. -/
def pick4 {β : Type} (y0 y1 y2 y3 : β) : Fin 4 → β
  | ⟨0, _⟩ => y0
  | ⟨1, _⟩ => y1
  | ⟨2, _⟩ => y2
  | ⟨3, _⟩ => y3

/-- Four [2048, 2048] matrices joined side by side: column `2048·g + j` of the joined matrix is column `j` of
    piece `g`. -/
theorem cat_cols {α : Type} (y0 y1 y2 y3 : S2048x2048.Idx → α)
    (h : Shape.Concatenates [S2048x2048, S2048x2048, S2048x2048, S2048x2048] S2048x8192 1)
    (g : Fin 4) (k j : Fin 2048) (c : Fin 8192) (hc : c.val = 2048 * g.val + j.val) :
    concatenate S2048x8192 1 [⟨S2048x2048, y0⟩, ⟨S2048x2048, y1⟩, ⟨S2048x2048, y2⟩, ⟨S2048x2048, y3⟩] h (ix2 k c)
      = pick4 y0 y1 y2 y3 g (ix2 k j) := by
  refine concatenate_apply_piece (1 : Fin S2048x8192.rank)
    [⟨S2048x2048, y0⟩, ⟨S2048x2048, y1⟩, ⟨S2048x2048, y2⟩, ⟨S2048x2048, y3⟩] h (ix2 k c) g.val g.isLt S2048x2048
    (pick4 y0 y1 y2 y3 g) ?_ rfl (2048 * g.val) ?_ (ix2 k j) ?_ ?_
  · match g with
    | ⟨0, _⟩ => rfl
    | ⟨1, _⟩ => rfl
    | ⟨2, _⟩ => rfl
    | ⟨3, _⟩ => rfl
  · match g with
    | ⟨0, _⟩ => rfl
    | ⟨1, _⟩ => rfl
    | ⟨2, _⟩ => rfl
    | ⟨3, _⟩ => rfl
  · intro b hb
    match b with
    | ⟨0, _⟩ => rfl
    | ⟨1, _⟩ => exact absurd rfl hb
  · show 2048 * g.val + j.val = c.val
    omega

/-- Four [2048] vectors joined end to end: entry `2048·g + j` of the joined vector is entry `j` of piece `g`. -/
theorem cat_vec {α : Type} (y0 y1 y2 y3 : S2048.Idx → α)
    (h : Shape.Concatenates [S2048, S2048, S2048, S2048] S8192 0)
    (g : Fin 4) (j : Fin 2048) (c : Fin 8192) (hc : c.val = 2048 * g.val + j.val) :
    concatenate S8192 0 [⟨S2048, y0⟩, ⟨S2048, y1⟩, ⟨S2048, y2⟩, ⟨S2048, y3⟩] h (ix1 c)
      = pick4 y0 y1 y2 y3 g (ix1 j) := by
  refine concatenate_apply_piece (0 : Fin S8192.rank)
    [⟨S2048, y0⟩, ⟨S2048, y1⟩, ⟨S2048, y2⟩, ⟨S2048, y3⟩] h (ix1 c) g.val g.isLt S2048
    (pick4 y0 y1 y2 y3 g) ?_ rfl (2048 * g.val) ?_ (ix1 j) ?_ ?_
  · match g with
    | ⟨0, _⟩ => rfl
    | ⟨1, _⟩ => rfl
    | ⟨2, _⟩ => rfl
    | ⟨3, _⟩ => rfl
  · match g with
    | ⟨0, _⟩ => rfl
    | ⟨1, _⟩ => rfl
    | ⟨2, _⟩ => rfl
    | ⟨3, _⟩ => rfl
  · intro b hb
    match b with
    | ⟨0, _⟩ => exact absurd rfl hb
  · show 2048 * g.val + j.val = c.val
    omega

/-! ## The indices the generated read lemmas compute, at an index given by its coordinates -/

theorem lidx37_ix (r : Fin 64) (j k : Fin 2048) : lidx_main_v37 (ix2 r j) k = ix2 r k := by
  funext a; match a with | ⟨0, _⟩ => rfl | ⟨1, _⟩ => rfl
theorem ridx37_ix (r : Fin 64) (j k : Fin 2048) : ridx_main_v37 (ix2 r j) k = ix2 k j := by
  funext a; match a with | ⟨0, _⟩ => rfl | ⟨1, _⟩ => rfl
theorem idx3839_ix (r : Fin 64) (j : Fin 2048) : idx_main_v38 (idx_main_v39 (ix2 r j)) = ix1 j := by
  funext a; match a with | ⟨0, _⟩ => rfl

theorem lidx3_ix (r : Fin 64) (c : Fin 8192) (k : Fin 2048) : lidx_main_v3 (ix2 r c) k = ix2 r k := by
  funext a; match a with | ⟨0, _⟩ => rfl | ⟨1, _⟩ => rfl
theorem ridx3_ix (r : Fin 64) (c : Fin 8192) (k : Fin 2048) : ridx_main_v3 (ix2 r c) k = ix2 k c := by
  funext a; match a with | ⟨0, _⟩ => rfl | ⟨1, _⟩ => rfl
theorem lidx4_ix (r : Fin 64) (c : Fin 8192) (k : Fin 2048) : lidx_main_v4 (ix2 r c) k = ix2 r k := by
  funext a; match a with | ⟨0, _⟩ => rfl | ⟨1, _⟩ => rfl
theorem ridx4_ix (r : Fin 64) (c : Fin 8192) (k : Fin 2048) : ridx_main_v4 (ix2 r c) k = ix2 k c := by
  funext a; match a with | ⟨0, _⟩ => rfl | ⟨1, _⟩ => rfl
theorem idx67_ix (r : Fin 64) (c : Fin 8192) : idx_main_v6 (idx_main_v7 (ix2 r c)) = ix1 c := by
  funext a; match a with | ⟨0, _⟩ => rfl

variable (x0 x1 x2 : (⟨S64x2048, .f32⟩ : BufTy).Contents (Elt Ideal))
variable (x3 x4 x6 x7 x9 x10 x12 x13 x15 : (⟨S2048x2048, .f32⟩ : BufTy).Contents (Elt Ideal))
variable (x5 x8 x11 x14 x16 : (⟨S2048, .f32⟩ : BufTy).Contents (Elt Ideal))

/-- The reference's output projection (its stage `%40`): argument 1 is the previous hidden state, 15 and 16 the
    projection's weights and bias. -/
theorem ref_proj (r : Fin 64) (j : Fin 2048) :
    val_main_v40 (F := Ideal) x1 x15 x16 (ix2 r j) = LstmCell.proj x1 x15 x16 r j := by
  rw [val_main_v40_apply, val_main_v37_apply, val_main_v39_apply, val_main_v38_apply, idx3839_ix]
  simp only [lidx37_ix, ridx37_ix]
  rfl

/-! ## The joined pre-activations: column `2048·g + j` is gate `g`'s pre-activation at feature `j` -/

/-- Entry (r, 2048·g + j) of the joined product plus the joined bias is gate `g`'s pre-activation, with gate `g`'s
    own weights and bias (the pieces are joined in the order forget, input, candidate, output). -/
theorem v8_gate (g : Fin 4) (r : Fin 64) (j : Fin 2048) (c : Fin 8192) (hc : c.val = 2048 * g.val + j.val) :
    val_main_v8 (F := Ideal) x0 x1 x3 x4 x5 x6 x7 x8 x9 x10 x11 x12 x13 x14 (ix2 r c)
      = LstmCell.gate x1 x0 (pick4 x3 x6 x12 x9 g) (pick4 x4 x7 x13 x10 g) (pick4 x5 x8 x14 x11 g) r j := by
  rw [val_main_v8_apply, val_main_v5_apply, val_main_v3_apply, val_main_v4_apply, val_main_v7_apply,
    val_main_v6_apply, idx67_ix]
  have hb : val_main_v2 (F := Ideal) x5 x8 x11 x14 (ix1 c) = pick4 x5 x8 x14 x11 g (ix1 j) :=
    cat_vec x5 x8 x14 x11 _ g j c hc
  have hh : ∀ k : Fin 2048, val_main_v0 (F := Ideal) x3 x6 x9 x12 (ix2 k c) = pick4 x3 x6 x12 x9 g (ix2 k j) :=
    fun k => cat_cols x3 x6 x12 x9 _ g k j c hc
  have hx : ∀ k : Fin 2048, val_main_v1 (F := Ideal) x4 x7 x10 x13 (ix2 k c) = pick4 x4 x7 x13 x10 g (ix2 k j) :=
    fun k => cat_cols x4 x7 x13 x10 _ g k j c hc
  simp only [lidx3_ix, ridx3_ix, lidx4_ix, ridx4_ix, hb, hh, hx]
  rfl

/-! ## The four gates, cut back out of the joined pre-activations -/

/-- Stage `%9` (columns 0 … 2047) is the forget gate's pre-activation. -/
theorem v9_gate (r : Fin 64) (j : Fin 2048) :
    val_main_v9 (F := Ideal) x0 x1 x3 x4 x5 x6 x7 x8 x9 x10 x11 x12 x13 x14 (ix2 r j)
      = LstmCell.gate x1 x0 x3 x4 x5 r j := by
  rw [val_main_v9_apply]
  have e : idx_main_v9 (ix2 r j) = ix2 r (⟨j.val, by omega⟩ : Fin 8192) := by
    funext a; match a with | ⟨0, _⟩ => rfl | ⟨1, _⟩ => rfl
  rw [e]
  exact v8_gate x0 x1 x3 x4 x6 x7 x9 x10 x12 x13 x5 x8 x11 x14 ⟨0, by decide⟩ r j _ (by show j.val = 2048 * 0 + j.val; omega)

/-- Stage `%10` (columns 2048 … 4095) is the input gate's pre-activation. -/
theorem v10_gate (r : Fin 64) (j : Fin 2048) :
    val_main_v10 (F := Ideal) x0 x1 x3 x4 x5 x6 x7 x8 x9 x10 x11 x12 x13 x14 (ix2 r j)
      = LstmCell.gate x1 x0 x6 x7 x8 r j := by
  rw [val_main_v10_apply]
  have e : idx_main_v10 (ix2 r j) = ix2 r (⟨2048 + j.val, by omega⟩ : Fin 8192) := by
    funext a; match a with | ⟨0, _⟩ => rfl | ⟨1, _⟩ => rfl
  rw [e]
  exact v8_gate x0 x1 x3 x4 x6 x7 x9 x10 x12 x13 x5 x8 x11 x14 ⟨1, by decide⟩ r j _ (by show 2048 + j.val = 2048 * 1 + j.val; omega)

/-- Stage `%11` (columns 4096 … 6143) is the candidate's pre-activation. -/
theorem v11_gate (r : Fin 64) (j : Fin 2048) :
    val_main_v11 (F := Ideal) x0 x1 x3 x4 x5 x6 x7 x8 x9 x10 x11 x12 x13 x14 (ix2 r j)
      = LstmCell.gate x1 x0 x12 x13 x14 r j := by
  rw [val_main_v11_apply]
  have e : idx_main_v11 (ix2 r j) = ix2 r (⟨4096 + j.val, by omega⟩ : Fin 8192) := by
    funext a; match a with | ⟨0, _⟩ => rfl | ⟨1, _⟩ => rfl
  rw [e]
  exact v8_gate x0 x1 x3 x4 x6 x7 x9 x10 x12 x13 x5 x8 x11 x14 ⟨2, by decide⟩ r j _ (by show 4096 + j.val = 2048 * 2 + j.val; omega)

/-- Stage `%12` (columns 6144 … 8191) is the output gate's pre-activation. -/
theorem v12_gate (r : Fin 64) (j : Fin 2048) :
    val_main_v12 (F := Ideal) x0 x1 x3 x4 x5 x6 x7 x8 x9 x10 x11 x12 x13 x14 (ix2 r j)
      = LstmCell.gate x1 x0 x9 x10 x11 r j := by
  rw [val_main_v12_apply]
  have e : idx_main_v12 (ix2 r j) = ix2 r (⟨6144 + j.val, by omega⟩ : Fin 8192) := by
    funext a; match a with | ⟨0, _⟩ => rfl | ⟨1, _⟩ => rfl
  rw [e]
  exact v8_gate x0 x1 x3 x4 x6 x7 x9 x10 x12 x13 x5 x8 x11 x14 ⟨3, by decide⟩ r j _ (by show 6144 + j.val = 2048 * 3 + j.val; omega)

/-! ## The sigmoid, spelt out -/

/-- `1 / (1 + e^(−z))` with the constant one given by its bit pattern is the logistic function. -/
theorem sigmoid_spelt (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.hostDivf_def, Ideal.addf_def, Ideal.ofBits_def, Ideal.hostUnary_exp_def, Ideal.hostNegf_def,
    Ideal.negf_def, Ideal.ofBits_one_f32]
  rfl

/-- The reference's forget gate (its stage `%18`). -/
theorem v18_eq (r : Fin 64) (j : Fin 2048) :
    val_main_v18 (F := Ideal) x0 x1 x3 x4 x5 x6 x7 x8 x9 x10 x11 x12 x13 x14 (ix2 r j)
      = Ideal.logistic (LstmCell.gate x1 x0 x3 x4 x5 r j) := by
  rw [val_main_v18_apply, val_main_v17_apply, val_main_cst_0_apply, val_main_v16_apply, val_main_v15_apply,
    val_main_cst_apply, val_main_v14_apply, val_main_v13_apply, v9_gate]
  exact sigmoid_spelt _

/-- The reference's input gate (its stage `%24`). -/
theorem v24_eq (r : Fin 64) (j : Fin 2048) :
    val_main_v24 (F := Ideal) x0 x1 x3 x4 x5 x6 x7 x8 x9 x10 x11 x12 x13 x14 (ix2 r j)
      = Ideal.logistic (LstmCell.gate x1 x0 x6 x7 x8 r j) := by
  rw [val_main_v24_apply, val_main_v23_apply, val_main_cst_2_apply, val_main_v22_apply, val_main_v21_apply,
    val_main_cst_1_apply, val_main_v20_apply, val_main_v19_apply, v10_gate]
  exact sigmoid_spelt _

/-- The reference's output gate (its stage `%31`). -/
theorem v31_eq (r : Fin 64) (j : Fin 2048) :
    val_main_v31 (F := Ideal) x0 x1 x3 x4 x5 x6 x7 x8 x9 x10 x11 x12 x13 x14 (ix2 r j)
      = Ideal.logistic (LstmCell.gate x1 x0 x9 x10 x11 r j) := by
  rw [val_main_v31_apply, val_main_v30_apply, val_main_cst_4_apply, val_main_v29_apply, val_main_v28_apply,
    val_main_cst_3_apply, val_main_v27_apply, val_main_v26_apply, v12_gate]
  exact sigmoid_spelt _

/-- The reference's candidate (its stage `%25`). -/
theorem v25_eq (r : Fin 64) (j : Fin 2048) :
    val_main_v25 (F := Ideal) x0 x1 x3 x4 x5 x6 x7 x8 x9 x10 x11 x12 x13 x14 (ix2 r j)
      = Ideal.tanh (LstmCell.gate x1 x0 x12 x13 x14 r j) := by
  rw [val_main_v25_apply, v11_gate]
  rfl

/-- The reference's new cell state (its stage `%34`): arguments 0, 1, 2 are the input, the previous hidden state and
    the previous cell state; (3, 4, 5), (6, 7, 8), (12, 13, 14) the forget, input and candidate gates' (Wh, Wx, b). -/
theorem ref_cell (r : Fin 64) (j : Fin 2048) :
    val_main_v34 (F := Ideal) x0 x1 x2 x3 x4 x5 x6 x7 x8 x9 x10 x11 x12 x13 x14 (ix2 r j)
      = LstmCell.cell x1 x0 x2 x3 x4 x5 x6 x7 x8 x12 x13 x14 r j := by
  rw [val_main_v34_apply, val_main_v32_apply, val_main_v33_apply, v18_eq, v24_eq, v25_eq]
  rfl

/-- The reference's new hidden state (its stage `%36`); (9, 10, 11) are the output gate's (Wh, Wx, b). -/
theorem ref_hidden (r : Fin 64) (j : Fin 2048) :
    val_main_v36 (F := Ideal) x0 x1 x2 x3 x4 x5 x6 x7 x8 x9 x10 x11 x12 x13 x14 (ix2 r j)
      = LstmCell.hidden x1 x0 x2 x3 x4 x5 x6 x7 x8 x12 x13 x14 x9 x10 x11 r j := by
  rw [val_main_v36_apply, val_main_v35_apply, v31_eq, ref_cell]
  rfl

end Cert.ReferenceIdeal.CellRef

end
-- ==== Proof.lean ====
/-
  One step of an LSTM cell: a fused Pallas kernel against its jnp reference, equal over the extended reals.

  The kernel walks the 2048 feature columns in sixteen blocks of 128. For its block it forms the four gates'
  pre-activations (Σₖ h(r, k)·Wh(k, j) + Σₖ x(r, k)·Wx(k, j)) + b(j) from the previous hidden state h and the input x,
  the new cell state σ(f)·c + σ(i)·tanh(c̃), the new hidden state σ(o)·tanh(new cell), and the projection
  Σₖ h(r, k)·Wy(k, j) + by(j) of the PREVIOUS hidden state, and writes the three blocks back; the program then joins the
  three result arrays side by side. The reference joins the gates' weights into one [2048, 8192] matrix, multiplies
  once, cuts the four gates back out, and joins the same three results. Over the extended reals a change of float
  format is the identity, a matrix product is the plain sum over the contracted index — the SAME index k in the same
  order on both sides, so no sum is rearranged and no finiteness of the inputs is used —, and the kernel's logistic
  is the reference's 1 / (1 + e^(−z)). So the three result arrays agree entry by entry (each is the specification
  `LstmCell.proj` / `hidden` / `cell` of the arguments), and the two programs apply the same joining to them.

  The three frames: the kernel program at both instances is one pipelined region followed by the joining operation
  (its arguments are the region's input arrays, never written back); the reference is a straight line of host
  operations. The ideal pass rewrote nothing, so there is nothing to preserve.
-/
import proofs.«151199_j11879879542513_1_alg».proof.Defs
import proofs.«151199_j11879879542513_1_alg».proof.Proof.Gen.Kernel
import proofs.«151199_j11879879542513_1_alg».proof.Proof.Gen.KernelIdeal
import proofs.«151199_j11879879542513_1_alg».proof.Proof.Gen.ReferenceIdeal
import proofs.«151199_j11879879542513_1_alg».proof.Proof.Gen.Pre_finite_inputs
import proofs.«151199_j11879879542513_1_alg».proof.Proof.KernelFrame
import proofs.«151199_j11879879542513_1_alg».proof.Proof.KernelIdealResult
import proofs.«151199_j11879879542513_1_alg».proof.Proof.KernelIdealCell
import proofs.«151199_j11879879542513_1_alg».proof.Proof.RefCell
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Lstm.frame m ρ

theorem frame_ideal : Cert.frame_KernelIdeal := fun m ρ _ => Cert.KernelIdeal.Lstm.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's packed result, on arguments that agree with the kernel's, is the kernel's packed result: the
    three joined arrays are equal entry by entry, each side's being the specification of the arguments. -/
theorem packed_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.res_main_v41 m' c = Cert.KernelIdeal.Lstm.packed m c := by
  obtain ⟨e0, e1, e2, e3, e4, e5, e6, e7, e8, e9, e10, e11, e12, e13, e14, e15, e16⟩ := hagree
  rw [Cert.ReferenceIdeal.Read.val_main_v41_eq, e0, e1, e2, e3, e4, e5, e6, e7, e8, e9, e10, e11, e12, e13, e14, e15, e16]
  have ey : Cert.ReferenceIdeal.Read.val_main_v40 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) = (Cert.KernelIdeal.Lstm.dats m 0 c).arrAt 17 Cert.KernelIdeal.cfg0.N := by
    funext i
    obtain ⟨r, j, rfl⟩ : ∃ (r : Fin 64) (j : Fin 2048), i = ix2 r j := ⟨i 0, i 1, eq_ix2 i⟩
    exact (Cert.ReferenceIdeal.CellRef.ref_proj _ _ _ r j).trans (Cert.KernelIdeal.Lstm.y_final m c r j).symm
  have eh : Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = (Cert.KernelIdeal.Lstm.dats m 0 c).arrAt 18 Cert.KernelIdeal.cfg0.N := by
    funext i
    obtain ⟨r, j, rfl⟩ : ∃ (r : Fin 64) (j : Fin 2048), i = ix2 r j := ⟨i 0, i 1, eq_ix2 i⟩
    exact (Cert.ReferenceIdeal.CellRef.ref_hidden _ _ _ _ _ _ _ _ _ _ _ _ _ _ _ r j).trans (Cert.KernelIdeal.Lstm.h_final m c r j).symm
  have ec : Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = (Cert.KernelIdeal.Lstm.dats m 0 c).arrAt 19 Cert.KernelIdeal.cfg0.N := by
    funext i
    obtain ⟨r, j, rfl⟩ : ∃ (r : Fin 64) (j : Fin 2048), i = ix2 r j := ⟨i 0, i 1, eq_ix2 i⟩
    exact (Cert.ReferenceIdeal.CellRef.ref_cell _ _ _ _ _ _ _ _ _ _ _ _ _ _ _ r j).trans (Cert.KernelIdeal.Lstm.c_final m c r j).symm
  unfold Cert.ReferenceIdeal.Read.val_main_v41
  rw [ey, eh, ec]
  rfl

theorem algebraic : Cert.algebraic_KernelIdeal_ReferenceIdeal := by
  intro m ρ m' ρ' _ hagree
  refine ⟨fun c => Cert.KernelIdeal.Lstm.packed m c, Cert.KernelIdeal.Lstm.run (F := Ideal) m ρ, ?_⟩
  refine (θ_run Cert.ReferenceIdeal.defs _ _).mono (fun _ h c => ⟨(h c).1.trans ?_, (h c).2⟩)
    (Cert.ReferenceIdeal.Value.run (F := Ideal) m' ρ')
  exact packed_eq m m' c (hagree c)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
